-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_arg2 : IVec S600000 32) (main_v32 : IVec S_ 1) (main_c_12 : IVec S_ 32) : IVec S_ 1 :=
  let main_v33 : IVec S2x600000 32 := broadcastInDim S2x600000 ![] bcast_S_S2x600000 main_c_12
  let main_v34 : IVec S2x600000 1 := cmpi .slt main_arg1 main_v33
  let main_c_13 : IVec S_ 1 := constantI S_ 1 1#1
  let main_v35 : IVec S_ 1 := (fun x v => Host.reduce IntOp.andi x v reducesTo_S2x600000_S_d0_1 h_S_) main_v34 main_c_13
  let main_v36 : IVec S_ 1 := andi main_v32 main_v35
  let main_c_14 : IVec S_ 32 := constantI S_ 32 0#32
  let main_v37 : IVec S600000 32 := broadcastInDim S600000 ![] bcast_S_S600000 main_c_14
  let main_v38 : IVec S600000 1 := cmpi .sge main_arg2 main_v37
  let main_c_15 : IVec S_ 1 := constantI S_ 1 1#1
  let main_v39 : IVec S_ 1 := (fun x v => Host.reduce IntOp.andi x v reducesTo_S600000_S_d0 h_S_) main_v38 main_c_15
  let main_v40 : IVec S_ 1 := andi main_v36 main_v39
  let main_c_16 : IVec S_ 32 := constantI S_ 32 3#32
  let main_v41 : IVec S600000 32 := broadcastInDim S600000 ![] bcast_S_S600000 main_c_16
  let main_v42 : IVec S600000 1 := cmpi .slt main_arg2 main_v41
  let main_c_17 : IVec S_ 1 := constantI S_ 1 1#1
  let main_v43 : IVec S_ 1 := (fun x v => Host.reduce IntOp.andi x v reducesTo_S600000_S_d0 h_S_) main_v42 main_c_17
  let main_v44 : IVec S_ 1 := andi main_v40 main_v43
  main_v44

def fn_part1 {F : FTy → Type} [FloatOps F] (main_arg1 : IVec S2x600000 32) (main_arg2 : IVec S600000 32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x600000 32 := broadcastInDim S2x600000 ![] bcast_S_S2x600000 main_c_10
  let main_v30 : IVec S2x600000 1 := cmpi .sge main_arg1 main_v29
  let main_c_11 : IVec S_ 1 := constantI S_ 1 1#1
  let main_v31 : IVec S_ 1 := (fun x v => Host.reduce IntOp.andi x v reducesTo_S2x600000_S_d0_1 h_S_) main_v30 main_c_11
  let main_v32 : IVec S_ 1 := andi main_v28 main_v31
  let main_c_12 : IVec S_ 32 := constantI S_ 32 50000#32
  fn_part2 (F := F) main_arg1 main_arg2 main_v32 main_c_12

def fn {F : FTy → Type} [FloatOps F] (main_arg0 : FVec F S50000x128 .f32) (main_arg1 : IVec S2x600000 32) (main_arg2 : IVec S600000 32) (main_arg3 : FVec F S3x128x128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S150000x128 : Shape := ⟨2, ![150000, 128]⟩
abbrev S3x50000x128 : Shape := ⟨3, ![3, 50000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S3x2000x128 : Shape := ⟨3, ![3, 2000, 128]⟩
abbrev S2000x1 : Shape := ⟨2, ![2000, 1]⟩
abbrev S1x2000x128 : Shape := ⟨3, ![1, 2000, 128]⟩
abbrev S1x128x128 : Shape := ⟨3, ![1, 128, 128]⟩
abbrev S2000 : Shape := ⟨1, ![2000]⟩

abbrev nBuf : Space → Nat
  | .hbm => 59
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S3x128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S1, .i32⟩
  | .hbm, ⟨21, _⟩ => ⟨S_, .i32⟩
  | .hbm, ⟨22, _⟩ => ⟨S600000x1, .i32⟩
  | .hbm, ⟨23, _⟩ => ⟨S600000x1, .i1⟩
  | .hbm, ⟨24, _⟩ => ⟨S1x1, .i32⟩
  | .hbm, ⟨25, _⟩ => ⟨S600000x1, .i32⟩
  | .hbm, ⟨26, _⟩ => ⟨S600000x1, .i1⟩
  | .hbm, ⟨27, _⟩ => ⟨S600000x1, .i1⟩
  | .hbm, ⟨28, _⟩ => ⟨S_, .i1⟩
  | .hbm, ⟨29, _⟩ => ⟨S600000, .i1⟩
  | .hbm, ⟨30, _⟩ => ⟨S600000x128, .f32⟩
  | .hbm, ⟨31, _⟩ => ⟨S600000x128, .i1⟩
  | .hbm, ⟨32, _⟩ => ⟨S_, .f32⟩
  | .hbm, ⟨33, _⟩ => ⟨S600000x128, .f32⟩
  | .hbm, ⟨34, _⟩ => ⟨S600000x128, .f32⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S_, .f32⟩
  | .hbm, ⟨40, _⟩ => ⟨S150000x128, .f32⟩
  | .hbm, ⟨41, _⟩ => ⟨S600000x1, .i32⟩
  | .hbm, ⟨42, _⟩ => ⟨S150000x128, .f32⟩
  | .hbm, ⟨43, _⟩ => ⟨S3x50000x128, .f32⟩
  | .hbm, ⟨44, _⟩ => ⟨S_, .f32⟩
  | .hbm, ⟨45, _⟩ => ⟨S600000, .f32⟩
  | .hbm, ⟨46, _⟩ => ⟨S_, .f32⟩
  | .hbm, ⟨47, _⟩ => ⟨S50000, .f32⟩
  | .hbm, ⟨48, _⟩ => ⟨S600000x1, .i32⟩
  | .hbm, ⟨49, _⟩ => ⟨S50000, .f32⟩
  | .hbm, ⟨50, _⟩ => ⟨S50000x1, .f32⟩
  | .hbm, ⟨51, _⟩ => ⟨S50000x128, .bf16⟩
  | .hbm, ⟨52, _⟩ => ⟨S3x128x128, .bf16⟩
  | .hbm, ⟨53, _⟩ => ⟨S128x128, .f32⟩
  | .hbm, ⟨54, _⟩ => ⟨S128x128, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S3x2000x128, .f32⟩
  | .local _ .vmem, ⟨3, _⟩ => ⟨S3x2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S1x128, .f32⟩
  | .local _ .vmem, ⟨8, _⟩ => ⟨S3x128x128, .bf16⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S150000x128 : S_.BroadcastsInDim S150000x128 (![] : Fin 0 → Fin S150000x128.rank)
  shapeCasts_S150000x128_S3x50000x128 : S150000x128.ShapeCasts S3x50000x128
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  transposes_S128x128_S128x128_1_0 : S128x128.Transposes [1, 0] S128x128
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x2000x128_S1x2000x128_1_0_0 : ∀ a, (![1, 0, 0] : Fin 3 → Nat) a + S1x2000x128.size a ≤ S3x2000x128.size a
  inb_S3x128x128_S1x128x128_1_0_0 : ∀ a, (![1, 0, 0] : Fin 3 → Nat) a + S1x128x128.size a ≤ S3x128x128.size a
  inb_S3x2000x128_S1x2000x128_2_0_0 : ∀ a, (![2, 0, 0] : Fin 3 → Nat) a + S1x2000x128.size a ≤ S3x2000x128.size a
  inb_S3x128x128_S1x128x128_2_0_0 : ∀ a, (![2, 0, 0] : Fin 3 → Nat) a + S1x128x128.size a ≤ S3x128x128.size a
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  gather_S50000x128_S600000x1_S600000x128_1_0_n_n_0_1_1128_wf : GatherDims.WF S50000x128 S600000x1 S600000x128 [1] [0] [] [0] [] 1 ![1, 128]
  scatter_S150000x128_S600000x1_S600000x128_1_0_0_1_wf : ScatterDims.WF S150000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2000x128.size a ≤ S3x50000x128.size a
  hwx0_1 : ∀ i : grid0.Coords, EltTy.bits .f32 = 32 ∨ (Rect.block (s := S3x50000x128) S3x2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128x128.size a ≤ S3x128x128.size a
  hwx0_5 : ∀ i : grid0.Coords, EltTy.bits .bf16 = 32 ∨ (Rect.block (s := S3x128x128) S3x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S150000x128_S600000x1_S600000x128_1_0_0_1 : ScatterDims S150000x128 S600000x1 S600000x128 where
  updateWindowDims := [1]
  insertedWindowDims := [0]
  scatterDimsToOperandDims := [0]
  indexVectorDim := 1
  wf := scatter_S150000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S3x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S3x128x128 : Shape := ⟨3, ![3, 128, 128]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S50000 : Shape := ⟨1, ![50000]⟩
abbrev S50000x1 : Shape := ⟨2, ![50000, 1]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S3x128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S600000x1, .i1⟩
  | .hbm, ⟨27, _⟩ => ⟨S1x128x128, .f32⟩
  | .hbm, ⟨28, _⟩ => ⟨S128x128, .f32⟩
  | .hbm, ⟨29, _⟩ => ⟨S600000x128, .f32⟩
  | .hbm, ⟨30, _⟩ => ⟨S_, .f32⟩
  | .hbm, ⟨31, _⟩ => ⟨S600000x128, .i1⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S600000x1, .i1⟩
  | .hbm, ⟨39, _⟩ => ⟨S1x128x128, .f32⟩
  | .hbm, ⟨40, _⟩ => ⟨S128x128, .f32⟩
  | .hbm, ⟨41, _⟩ => ⟨S600000x128, .f32⟩
  | .hbm, ⟨42, _⟩ => ⟨S_, .f32⟩
  | .hbm, ⟨43, _⟩ => ⟨S600000x128, .i1⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S600000x1, .i1⟩
  | .hbm, ⟨51, _⟩ => ⟨S1x128x128, .f32⟩
  | .hbm, ⟨52, _⟩ => ⟨S128x128, .f32⟩
  | .hbm, ⟨53, _⟩ => ⟨S600000x128, .f32⟩
  | .hbm, ⟨54, _⟩ => ⟨S_, .f32⟩
  | .hbm, ⟨55, _⟩ => ⟨S600000x128, .i1⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x1, .f32⟩
  | .hbm, ⟨103, _⟩ => ⟨S50000x1, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  slices_S3x128x128_S1x128x128_1_0_0 : S3x128x128.Slices ![1, 0, 0] S1x128x128
  slices_S3x128x128_S1x128x128_2_0_0 : S3x128x128.Slices ![2, 0, 0] S1x128x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute, one output row at a time.

  A node's output row is the layer normalisation of its pre-activation row h: with mean μ = (Σ_k h_k) / 128 and variance
  v = (Σ_k (h_k - μ)²) / 128, entry q is  γ_q · (h_q - μ) · (v + ε)^(-1/2) + β_q.  The pre-activation is the linear term plus
  bias plus the node's aggregated relation messages divided by its clamped in-degree:
  h_j = (lin_j + b_j) + acc_j / max(deg, 1).  All operations are the exact ones on the extended reals; the three float
  constants 1, 128 and ε stay the words the programs carry, the same words on both sides.
-/
import Idealize.ShloMosaic.PureOps.Ideal
import Idealize.ShloMosaic.Lib.ValueIdx

open scoped BigOperators

noncomputable section

namespace Cert.Spec

open Idealize.ShloMosaic

/-- The word of 1.0. -/
abbrev one : EReal := Ideal.ofBits .f32 0x3F800000#32
/-- The word of 128.0, the row length as a float. -/
abbrev c128 : EReal := Ideal.ofBits .f32 0x43000000#32
/-- The word of the variance offset ε. -/
abbrev eps : EReal := Ideal.ofBits .f32 0x3727C5AC#32

/-- The mean of a row of 128 entries. -/
def mean (h : Fin 128 → EReal) : EReal := Ideal.div (∑ k, h k) c128

/-- The (biased) variance of a row of 128 entries. -/
def var (h : Fin 128 → EReal) : EReal := Ideal.div (∑ k, (h k - mean h) * (h k - mean h)) c128

/-- Layer normalisation of the row h with scale g and shift b, entry q. -/
def lnRow (h g b : Fin 128 → EReal) (q : Fin 128) : EReal :=
  g q * (h q - mean h) * Ideal.rsqrt (var h + eps) + b q

/-- The pre-activation entry j: linear term plus bias plus the aggregate over the clamped degree. -/
def hRow (lin lb acc : Fin 128 → EReal) (deg : EReal) (j : Fin 128) : EReal :=
  (lin j + lb j) + Ideal.div (acc j) (max deg one)

open Idealize.ShloMosaic.ValueIdx

/-- Row n, column q of the output, from the arrays the kernel region reads: the node features X, the per-relation
    aggregates A, the degree column D, the transposed linear weights W, the bias row B, the relation weights R, and the
    scale and shift rows. -/
def outRow (X : (⟨2, ![50000, 128]⟩ : Shape).Idx → EReal) (A : (⟨3, ![3, 50000, 128]⟩ : Shape).Idx → EReal)
    (D : (⟨2, ![50000, 1]⟩ : Shape).Idx → EReal) (W : (⟨2, ![128, 128]⟩ : Shape).Idx → EReal) (B : (⟨2, ![1, 128]⟩ : Shape).Idx → EReal)
    (R : (⟨3, ![3, 128, 128]⟩ : Shape).Idx → EReal) (Gm Bt : (⟨2, ![1, 128]⟩ : Shape).Idx → EReal) (n : Fin 50000) (q : Fin 128) : EReal :=
  lnRow (hRow (fun j => ∑ k : Fin 128, X (ix2 n k) * W (ix2 k j)) (fun j => B (ix2 (0 : Fin 1) j))
      (fun j => ((∑ k : Fin 128, A (ix3 (0 : Fin 3) n k) * R (ix3 (0 : Fin 3) k j))
          + ∑ k : Fin 128, A (ix3 (1 : Fin 3) n k) * R (ix3 (1 : Fin 3) k j))
        + ∑ k : Fin 128, A (ix3 (2 : Fin 3) n k) * R (ix3 (2 : Fin 3) k j))
      (D (ix2 n (0 : Fin 1))))
    (fun j => Gm (ix2 (0 : Fin 1) j)) (fun j => Bt (ix2 (0 : Fin 1) j)) q

/-- The whole output array. -/
def outArr (X : (⟨2, ![50000, 128]⟩ : Shape).Idx → EReal) (A : (⟨3, ![3, 50000, 128]⟩ : Shape).Idx → EReal)
    (D : (⟨2, ![50000, 1]⟩ : Shape).Idx → EReal) (W : (⟨2, ![128, 128]⟩ : Shape).Idx → EReal) (B : (⟨2, ![1, 128]⟩ : Shape).Idx → EReal)
    (R : (⟨3, ![3, 128, 128]⟩ : Shape).Idx → EReal) (Gm Bt : (⟨2, ![1, 128]⟩ : Shape).Idx → EReal) :
    (⟨2, ![50000, 128]⟩ : Shape).Idx → EReal := fun i => outRow X A D W B R Gm Bt (i 0) (i 1)

/-! ## Sums over the edges

  The same numbers written from the raw inputs: ei is the [2, 600000] edge table (row 0 the sources, row 1 the destinations),
  et the edge types, x the node features, R the relation weights. -/

/-- The feature row edge e reads: its source word as a signed integer, clamped into [0, 49999]. -/
def srcRow (ei : (⟨2, ![2, 600000]⟩ : Shape).Idx → BitVec 32) (e : Fin 600000) : Fin 50000 :=
  ⟨min (ei (ix2 (0 : Fin 2) e)).toInt.toNat 49999, by omega⟩

/-- Entry k of the feature row edge e reads. -/
def feat (x : (⟨2, ![50000, 128]⟩ : Shape).Idx → EReal) (ei : (⟨2, ![2, 600000]⟩ : Shape).Idx → BitVec 32) (e : Fin 600000) (k : Fin 128) : EReal :=
  x (ix2 (srcRow ei e) k)

/-- Edge e's key: relation · 50000 + destination, in 32-bit words. -/
def segWord (ei : (⟨2, ![2, 600000]⟩ : Shape).Idx → BitVec 32) (et : (⟨1, ![600000]⟩ : Shape).Idx → BitVec 32) (e : Fin 600000) : BitVec 32 :=
  IntOp.addi (IntOp.muli (et (ix1 e)) 50000#32) (ei (ix2 (1 : Fin 2) e))

/-- Relation r's message of edge e, entry j: the edge's feature row times column j of the relation's weights if the edge
    carries relation r, and 0 otherwise. -/
def relMsg (x : (⟨2, ![50000, 128]⟩ : Shape).Idx → EReal) (ei : (⟨2, ![2, 600000]⟩ : Shape).Idx → BitVec 32)
    (et : (⟨1, ![600000]⟩ : Shape).Idx → BitVec 32) (R : (⟨3, ![3, 128, 128]⟩ : Shape).Idx → EReal) (r : Fin 3) (e : Fin 600000) (j : Fin 128) : EReal :=
  if et (ix1 e) = BitVec.ofNat 32 r.val then ∑ k : Fin 128, feat x ei e k * R (ix3 r k j) else 0

/-- Node n's aggregated messages, entry j: the sum over the edges pointing at n of their three relation messages. -/
def aggRef (x : (⟨2, ![50000, 128]⟩ : Shape).Idx → EReal) (ei : (⟨2, ![2, 600000]⟩ : Shape).Idx → BitVec 32)
    (et : (⟨1, ![600000]⟩ : Shape).Idx → BitVec 32) (R : (⟨3, ![3, 128, 128]⟩ : Shape).Idx → EReal) (n : Fin 50000) (j : Fin 128) : EReal :=
  ∑ e : Fin 600000, if (ei (ix2 (1 : Fin 2) e)).toInt = (n.val : Int)
    then (relMsg x ei et R 0 e j + relMsg x ei et R 1 e j) + relMsg x ei et R 2 e j else 0

/-- Node n's in-degree as a float: one per edge pointing at n. -/
def degOf (ei : (⟨2, ![2, 600000]⟩ : Shape).Idx → BitVec 32) (n : Fin 50000) : EReal :=
  ∑ e : Fin 600000, if (ei (ix2 (1 : Fin 2) e)).toInt = (n.val : Int) then one else 0

/-- Relation r's aggregate of node n, entry k: the sum of the feature rows of the edges whose key is r · 50000 + n. -/
def aggRel (x : (⟨2, ![50000, 128]⟩ : Shape).Idx → EReal) (ei : (⟨2, ![2, 600000]⟩ : Shape).Idx → BitVec 32)
    (et : (⟨1, ![600000]⟩ : Shape).Idx → BitVec 32) (r : Fin 3) (n : Fin 50000) (k : Fin 128) : EReal :=
  ∑ e : Fin 600000, if (segWord ei et e).toInt = ((r.val * 50000 + n.val : Nat) : Int) then feat x ei e k else 0

end Cert.Spec

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.KernelBlock.lean ====
/-
  One block of the kernel's output, entry by entry.

  At a grid point the kernel body holds a tile of 2000 node rows.  Row p of the tile's result is the layer normalisation
  (Spec.lnRow) of the pre-activation row whose entry j is: the row's features times column j of the transposed linear
  weights, plus the bias, plus the sum over the three relations of the row's aggregated features times column j of that
  relation's weights, divided by the row's clamped degree.  Each matrix product into a zero accumulator is a plain sum over
  the 128 contracted coordinates; the lane reductions are plain sums over the row.
-/
import proofs.«421003_j67817533604356_2_alg».proof.Proof.Gen.KernelIdeal.Value
import proofs.«421003_j67817533604356_2_alg».proof.Proof.Spec
import proofs.«421003_j67817533604356_2_alg».proof.Proof.LibRowTile
import proofs.«421003_j67817533604356_2_alg».proof.Proof.LibLayoutColumn
import Idealize.ShloMosaic.PureOps.Ideal.Laws
import Idealize.ShloMosaic.Lib.Pipeline.Value

open scoped BigOperators

noncomputable section

namespace Cert.KernelIdeal.Block

open Cert.KernelIdeal Cert.KernelIdeal.Gen Idealize.ShloMosaic Idealize.ShloMosaic.ValueIdx Cert.Lib Cert.Spec

/-- The kernel's tile product is a plain [2000,128]·[128,128] contraction. -/
theorem plainTile : IsPlain dot_S2000x128_S128x128_S2000x128_1_0_0_1_n_n := ⟨rfl, rfl, rfl, rfl, rfl, rfl, rfl, rfl⟩

/-- A tile product into a zero accumulator, at (p, j): the sum over k of left (p, k) times right (k, j). -/
theorem matmul_tile_apply (l : FVec Ideal S2000x128 .bf16) (r : FVec Ideal S128x128 .bf16) (p : Fin 2000) (j : Fin 128) :
    matmul dot_S2000x128_S128x128_S2000x128_1_0_0_1_n_n none l r (constant S2000x128 .f32 0x00000000#32) (ix2 p j)
      = ∑ k : Fin 128, l (ix2 p k) * r (ix2 k j) :=
  (Ideal.matmul_constant_zero_apply _ none l r (ix2 p j)).trans (plainTile.sum_eq l r (ix2 p j))

/-- A [1,2000,128] slab cast to [2000,128] reads, at (p, k), the slab at (0, p, k). -/
theorem cast_slab_apply (v : S1x2000x128.Idx → EReal) (p : Fin 2000) (k : Fin 128) :
    shapeCast S2000x128 v shapeCasts_S1x2000x128_S2000x128 (ix2 p k) = v (ix3 (0 : Fin 1) p k) :=
  shapeCast_apply v _ _ _ (by
    rw [Shape.rowMajor_val_three, Shape.rowMajor_val_two]
    show (0 * 2000 + p.val) * 128 + k.val = p.val * 128 + k.val
    omega)

/-- A [1,128,128] slab cast to [128,128] reads, at (k, j), the slab at (0, k, j). -/
theorem cast_wslab_apply (v : S1x128x128.Idx → EReal) (k : Fin 128) (j : Fin 128) :
    shapeCast S128x128 v shapeCasts_S1x128x128_S128x128 (ix2 k j) = v (ix3 (0 : Fin 1) k j) :=
  shapeCast_apply v _ _ _ (by
    rw [Shape.rowMajor_val_three, Shape.rowMajor_val_two]
    show (0 * 128 + k.val) * 128 + j.val = k.val * 128 + j.val
    omega)

/-- The linear term plus bias of the tile, at (p, j). -/
theorem pay2_apply (P1 : Vec Ideal S2000x128 .bf16) (P2 : Vec Ideal S128x128 .bf16) (P3 : Vec Ideal S1x128 .f32)
    (p : Fin 2000) (j : Fin 128) :
    k0_pay2 P1 P2 P3 (ix2 p j) = (∑ k : Fin 128, P1 (ix2 p k) * P2 (ix2 k j)) + P3 (ix2 (0 : Fin 1) j) := by
  unfold k0_pay2
  rw [shapeCast_self, shapeCast_self, shapeCast_self]
  refine (addf_apply _ _ _).trans ?_
  refine congrArg₂ (· + ·) (matmul_tile_apply P1 P2 p j) ?_
  refine broadcastTo_apply P3 _ (ix2 p j) (ix2 (0 : Fin 1) j) fun ax => ?_
  match ax with
  | ⟨0, _⟩ => rfl
  | ⟨1, _⟩ => rfl

/-- One relation's product of the tile, at (p, j). -/
theorem pay4_apply (P8 : Vec Ideal S1x2000x128 .f32) (P9 : Vec Ideal S1x128x128 .bf16) (p : Fin 2000) (j : Fin 128) :
    k0_pay4 P8 P9 (ix2 p j) = ∑ k : Fin 128, P8 (ix3 (0 : Fin 1) p k) * P9 (ix3 (0 : Fin 1) k j) := by
  unfold k0_pay4
  refine (matmul_tile_apply _ _ p j).trans ?_
  refine Finset.sum_congr rfl fun k _ => ?_
  rw [cast_wslab_apply]
  exact congrArg (· * _) (cast_slab_apply P8 p k)

/-- The first two relations' products of the tile, summed, at (p, j). -/
theorem pay3_apply (P4 : Vec Ideal S1x2000x128 .f32) (P5 : Vec Ideal S1x128x128 .bf16) (P6 : Vec Ideal S1x2000x128 .f32)
    (P7 : Vec Ideal S1x128x128 .bf16) (p : Fin 2000) (j : Fin 128) :
    k0_pay3 P4 P5 P6 P7 (ix2 p j)
      = (∑ k : Fin 128, P4 (ix3 (0 : Fin 1) p k) * P5 (ix3 (0 : Fin 1) k j))
        + ∑ k : Fin 128, P6 (ix3 (0 : Fin 1) p k) * P7 (ix3 (0 : Fin 1) k j) := by
  unfold k0_pay3
  refine (addf_apply _ _ _).trans ?_
  refine congrArg₂ (· + ·) ?_ ?_
  · refine (addf_apply _ _ _).trans ?_
    rw [broadcast_apply]
    show Ideal.ofBits .f32 0x00000000#32 + _ = _
    rw [Ideal.ofBits_zero_f32, zero_add]
    refine (matmul_tile_apply _ _ p j).trans ?_
    refine Finset.sum_congr rfl fun k _ => ?_
    rw [cast_wslab_apply]
    exact congrArg (· * _) (cast_slab_apply P4 p k)
  · refine (matmul_tile_apply _ _ p j).trans ?_
    refine Finset.sum_congr rfl fun k _ => ?_
    rw [cast_wslab_apply]
    exact congrArg (· * _) (cast_slab_apply P6 p k)

/-! ## The pre-activation tile, its row sums, and the normalised block -/

section Tile

variable (P0 : Vec Ideal S1x128 .f32) (P1 : Vec Ideal S2000x128 .bf16) (P2 : Vec Ideal S128x128 .bf16) (P3 : Vec Ideal S1x128 .f32)
  (P4 : Vec Ideal S1x2000x128 .f32) (P5 : Vec Ideal S1x128x128 .bf16) (P6 : Vec Ideal S1x2000x128 .f32) (P7 : Vec Ideal S1x128x128 .bf16)
  (P8 : Vec Ideal S1x2000x128 .f32) (P9 : Vec Ideal S1x128x128 .bf16) (P10 : Vec Ideal S2000x1 .f32) (P11 : Vec Ideal S1x128 .f32)

/-- The pre-activation of the tile as the body computes it. -/
abbrev preAct : FVec Ideal S2000x128 .f32 :=
  addf (k0_pay2 P1 P2 P3) (divf (addf (k0_pay3 P4 P5 P6 P7) (k0_pay4 P8 P9)) (broadcastTo S2000x128 (maximumf (shapeCast S2000x1 P10 shapeCasts_S2000x1_S2000x1) (broadcast S2000x1 (Scalar.ofBits .f32 0x3F800000#32))) broadcasts_S2000x1_S2000x128))

/-- The row sums of the pre-activation. -/
abbrev rowSum : FVec Ideal S2000 .f32 :=
  multiReduction .add [1] S2000 (preAct P1 P2 P3 P4 P5 P6 P7 P8 P9 P10) 0x00000000#32 reduces_S2000x128_S2000 (.inl rfl) rfl

/-- The pre-activation minus its row mean. -/
abbrev centred : FVec Ideal S2000x128 .f32 :=
  subf (preAct P1 P2 P3 P4 P5 P6 P7 P8 P9 P10) (broadcastTo S2000x128 (divf (shapeCast S2000x1 (rowSum P1 P2 P3 P4 P5 P6 P7 P8 P9 P10) shapeCasts_S2000_S2000x1) (broadcast S2000x1 (Scalar.ofBits .f32 0x43000000#32))) broadcasts_S2000x1_S2000x128)

/-- The row sums of the squared centred pre-activation. -/
abbrev sqSum : FVec Ideal S2000 .f32 :=
  multiReduction .add [1] S2000 (mulf (centred P1 P2 P3 P4 P5 P6 P7 P8 P9 P10) (centred P1 P2 P3 P4 P5 P6 P7 P8 P9 P10)) 0x00000000#32 reduces_S2000x128_S2000 (.inl rfl) rfl

/-- Row p of the tile's pre-activation, as the specification's row. -/
abbrev hTile (p : Fin 2000) : Fin 128 → EReal :=
  hRow (fun j => ∑ k : Fin 128, P1 (ix2 p k) * P2 (ix2 k j)) (fun j => P3 (ix2 (0 : Fin 1) j))
    (fun j => ((∑ k : Fin 128, P4 (ix3 (0 : Fin 1) p k) * P5 (ix3 (0 : Fin 1) k j)) + ∑ k : Fin 128, P6 (ix3 (0 : Fin 1) p k) * P7 (ix3 (0 : Fin 1) k j))
      + ∑ k : Fin 128, P8 (ix3 (0 : Fin 1) p k) * P9 (ix3 (0 : Fin 1) k j))
    (P10 (ix2 p (0 : Fin 1)))

theorem preAct_apply (p : Fin 2000) (j : Fin 128) :
    preAct P1 P2 P3 P4 P5 P6 P7 P8 P9 P10 (ix2 p j) = hTile P1 P2 P3 P4 P5 P6 P7 P8 P9 P10 p j := by
  unfold hTile hRow
  refine (addf_apply _ _ _).trans ?_
  refine congrArg₂ (· + ·) (pay2_apply P1 P2 P3 p j) ?_
  refine (divf_apply _ _ _).trans ?_
  refine congrArg₂ Ideal.div ?_ ?_
  · exact (addf_apply _ _ _).trans (congrArg₂ (· + ·) (pay3_apply P4 P5 P6 P7 p j) (pay4_apply P8 P9 p j))
  · refine (broadcastTo_a1_ab_apply _ _ p j).trans ?_
    refine (maximumf_apply _ _ _).trans ?_
    rw [shapeCast_self]
    rfl

/-- A lane reduction of a [2000,128] tile along its rows, at row p: the sum of the row. -/
theorem laneSum_apply (src : FVec Ideal S2000x128 .f32) (p : Fin 2000) :
    multiReduction .add [1] S2000 src 0x00000000#32 reduces_S2000x128_S2000 (.inl rfl) rfl (ix1 p) = ∑ j : Fin 128, src (ix2 p j) := by
  refine (Ideal.multiReduction_add_single src 0x00000000#32 reduces_S2000x128_S2000 (.inl rfl) rfl (ix1 p)).trans ?_
  show (∑ j : Fin 128, src (reduces_S2000x128_S2000.lift (ix1 p) j)) = _
  refine Finset.sum_congr rfl fun j _ => congrArg src ?_
  funext a
  refine Fin.ext ?_
  match a with
  | ⟨0, _⟩ => rfl
  | ⟨1, _⟩ => rfl

theorem rowSum_apply (p : Fin 2000) :
    rowSum P1 P2 P3 P4 P5 P6 P7 P8 P9 P10 (ix1 p) = ∑ j : Fin 128, hTile P1 P2 P3 P4 P5 P6 P7 P8 P9 P10 p j :=
  (laneSum_apply _ p).trans (Finset.sum_congr rfl fun j _ => preAct_apply P1 P2 P3 P4 P5 P6 P7 P8 P9 P10 p j)

theorem centred_apply (p : Fin 2000) (j : Fin 128) :
    centred P1 P2 P3 P4 P5 P6 P7 P8 P9 P10 (ix2 p j)
      = hTile P1 P2 P3 P4 P5 P6 P7 P8 P9 P10 p j - mean (hTile P1 P2 P3 P4 P5 P6 P7 P8 P9 P10 p) := by
  refine (subf_apply _ _ _).trans ?_
  refine congrArg₂ (· - ·) (preAct_apply P1 P2 P3 P4 P5 P6 P7 P8 P9 P10 p j) ?_
  refine (broadcastTo_a1_ab_apply _ _ p j).trans ?_
  refine (divf_apply _ _ _).trans ?_
  unfold mean
  refine congrArg₂ Ideal.div ?_ rfl
  exact (shapeCast_a_a1_apply _ _ p (0 : Fin 1)).trans (rowSum_apply P1 P2 P3 P4 P5 P6 P7 P8 P9 P10 p)

theorem sqSum_apply (p : Fin 2000) :
    sqSum P1 P2 P3 P4 P5 P6 P7 P8 P9 P10 (ix1 p)
      = ∑ j : Fin 128, (hTile P1 P2 P3 P4 P5 P6 P7 P8 P9 P10 p j - mean (hTile P1 P2 P3 P4 P5 P6 P7 P8 P9 P10 p))
          * (hTile P1 P2 P3 P4 P5 P6 P7 P8 P9 P10 p j - mean (hTile P1 P2 P3 P4 P5 P6 P7 P8 P9 P10 p)) := by
  refine (laneSum_apply _ p).trans (Finset.sum_congr rfl fun j _ => ?_)
  refine (mulf_apply _ _ _).trans ?_
  rw [centred_apply]

/-- THE BLOCK: entry (p, q) of what the body's store leaves is the layer normalisation of row p's pre-activation. -/
theorem block_apply (p : Fin 2000) (q : Fin 128) :
    Value.E8 P0 P1 P2 P3 P4 P5 P6 P7 P8 P9 P10 P11 (ix2 p q)
      = lnRow (hTile P1 P2 P3 P4 P5 P6 P7 P8 P9 P10 p) (fun j => P0 (ix2 (0 : Fin 1) j)) (fun j => P11 (ix2 (0 : Fin 1) j)) q := by
  have e0 : Value.ix8_0 (ix2 p q) = ix2 (0 : Fin 1) q := by funext a; match a with | ⟨0, _⟩ => rfl | ⟨1, _⟩ => rfl
  have e1 : Value.ix8_1 (ix2 p q) = ix2 p q := by funext a; match a with | ⟨0, _⟩ => rfl | ⟨1, _⟩ => rfl
  have e2 : Value.ix8_2 (ix2 p q) = ix2 p q := by funext a; match a with | ⟨0, _⟩ => rfl | ⟨1, _⟩ => rfl
  have e3 : Value.ix8_3 (ix2 p q) = ix2 p q := by funext a; match a with | ⟨0, _⟩ => rfl | ⟨1, _⟩ => rfl
  have e4 : Value.ix8_4 (ix2 p q) = ix2 p (0 : Fin 1) := by funext a; match a with | ⟨0, _⟩ => rfl | ⟨1, _⟩ => rfl
  have e5 : Value.ix8_5 (ix2 p q) = ix1 p := by funext a; match a with | ⟨0, _⟩ => rfl
  have e6 : Value.ix8_6 (ix2 p q) = ix1 p := by funext a; match a with | ⟨0, _⟩ => rfl
  have e7 : Value.ix8_7 (ix2 p q) = ix2 (0 : Fin 1) q := by funext a; match a with | ⟨0, _⟩ => rfl | ⟨1, _⟩ => rfl
  dsimp only [Value.E8]
  rw [e0, e1, e2, e3, e4, e5, e6, e7]
  unfold lnRow var
  refine congrArg₂ (· + ·) (congrArg₂ (· * ·) (congrArg₂ (· * ·) rfl (congrArg₂ (· - ·) ?_ ?_))
    (congrArg Ideal.rsqrt (congrArg₂ (· + ·) (congrArg₂ Ideal.div ?_ rfl) rfl))) rfl
  · unfold hTile hRow
    exact congrArg₂ (· + ·) (pay2_apply P1 P2 P3 p q)
      (congrArg₂ Ideal.div (congrArg₂ (· + ·) (pay3_apply P4 P5 P6 P7 p q) (pay4_apply P8 P9 p q)) rfl)
  · unfold mean
    exact congrArg₂ Ideal.div (rowSum_apply P1 P2 P3 P4 P5 P6 P7 P8 P9 P10 p) rfl
  · exact sqSum_apply P1 P2 P3 P4 P5 P6 P7 P8 P9 P10 p

/-- The same, stated on the store list the frame names: what the body's one store leaves in the block, at (p, q). -/
theorem canon_apply (p : Fin 2000) (q : Fin 128) :
    View.canon (Val := Elt Ideal) (s := S2000x128) (e := .f32) [⟨r0_0, k0_pay1 (k0_pay2 P1 P2 P3) (k0_pay3 P4 P5 P6 P7) (k0_pay4 P8 P9) P10 P0 P11⟩] (ix2 p q)
      = lnRow (hTile P1 P2 P3 P4 P5 P6 P7 P8 P9 P10 p) (fun j => P0 (ix2 (0 : Fin 1) j)) (fun j => P11 (ix2 (0 : Fin 1) j)) q :=
  (Value.canon8_eq P0 P1 P2 P3 P4 P5 P6 P7 P8 P9 P10 P11 (ix2 p q)).trans (block_apply P0 P1 P2 P3 P4 P5 P6 P7 P8 P9 P10 P11 p q)

end Tile

end Cert.KernelIdeal.Block

end
-- ==== Proof.KernelReads.lean ====
/-
  The kernel's input blocks, read off the arrays the region finds.

  The grid has 25 points; point t stages rows 2000·t … 2000·t + 1999 of the node features, of each relation's aggregate and
  of the degree column, and the whole of every weight, bias, scale and shift array.  Each staged block, read through the
  rectangle the body loads, is the array at the corresponding rows.
-/
import proofs.«421003_j67817533604356_2_alg».proof.Proof.KernelBlock

open scoped BigOperators

noncomputable section

namespace Cert.KernelIdeal.Arr

open Cert.KernelIdeal Cert.KernelIdeal.Gen Idealize.ShloMosaic Idealize.ShloMosaic.ValueIdx Cert.Lib Cert.Spec Cert.KernelIdeal.Block
open Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the 25 grid points: the row-tiled windows sit at block t, the others at block 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 ∧ t.val < 25 :=
  (by decide +kernel : ∀ t : Fin grid0.N, _)

/-- Every block row of the output is some point's. -/
theorem idx_onto : ∀ q0 : Fin 25, ∃ t : Fin cfg0.N, win0_8.index t (0 : Fin 2) = q0.val ∧ win0_8.index t (1 : Fin 2) = 0 :=
  (by decide +kernel : ∀ q0 : Fin 25, ∃ t : Fin grid0.N, win0_8.index t (0 : Fin 2) = q0.val ∧ win0_8.index t (1 : Fin 2) = 0)

/-- The feature tile's row p is row 2000·t + p of the feature array. -/
theorem x_read (c : Dev nD) (t : Fin cfg0.N) (X : Buf (Elt Ideal) ((c : Thread nD τ).loc (Pipeline.arrRef spec0 0))) (p : Fin 2000)  (k : Fin 128) (hn : t.val * 2000 + p.val < 50000) :
    View.ld (((cfg0.win 0).blk t).view.read (Elt Ideal) X : Vec Ideal S2000x128 .bf16) r0_0 (ix2 p k) = (X : S50000x128.Idx → EReal) (ix2 (⟨t.val * 2000 + p.val, hn⟩ : Fin 50000) k) := by
  obtain ⟨e00, e01, e10, e11, e12, e20, e21, e30, e31, e40, e41, e50, e51, e52, e60, e61, e70, e71, e80, e81, ht⟩ := idx_facts t
  show (((cfg0.win 0).blk t).view.read (Elt Ideal) X : Vec Ideal S2000x128 .bf16) (r0_0.idx (ix2 p k)) = _
  rw [View.read_apply]
  show (X : S50000x128.Idx → EReal) _ = _
  congr 1
  funext ax; apply Fin.ext
  match ax with
  | ⟨0, _⟩ => show win0_0.index t (0 : Fin 2) * 2000 + 1 * (0 + 1 * (p : Nat)) = t.val * 2000 + p.val; (try simp only [Fin.val_zero]); omega
  | ⟨1, _⟩ => show win0_0.index t (1 : Fin 2) * 128 + 1 * (0 + 1 * (k : Nat)) = (k : Nat); (try simp only [Fin.val_zero]); omega

/-- The degree tile's row p is row 2000·t + p of the degree column. -/
theorem d_read (c : Dev nD) (t : Fin cfg0.N) (X : Buf (Elt Ideal) ((c : Thread nD τ).loc (Pipeline.arrRef spec0 2))) (p : Fin 2000)   (hn : t.val * 2000 + p.val < 50000) :
    View.ld (((cfg0.win 2).blk t).view.read (Elt Ideal) X : Vec Ideal S2000x1 .f32) r0_9 (ix2 p (0 : Fin 1)) = (X : S50000x1.Idx → EReal) (ix2 (⟨t.val * 2000 + p.val, hn⟩ : Fin 50000) (0 : Fin 1)) := by
  obtain ⟨e00, e01, e10, e11, e12, e20, e21, e30, e31, e40, e41, e50, e51, e52, e60, e61, e70, e71, e80, e81, ht⟩ := idx_facts t
  show (((cfg0.win 2).blk t).view.read (Elt Ideal) X : Vec Ideal S2000x1 .f32) (r0_9.idx (ix2 p (0 : Fin 1))) = _
  rw [View.read_apply]
  show (X : S50000x1.Idx → EReal) _ = _
  congr 1
  funext ax; apply Fin.ext
  match ax with
  | ⟨0, _⟩ => show win0_2.index t (0 : Fin 2) * 2000 + 1 * (0 + 1 * (p : Nat)) = t.val * 2000 + p.val; (try simp only [Fin.val_zero]); omega
  | ⟨1, _⟩ => show win0_2.index t (1 : Fin 2) * 1 + 1 * (0 + 1 * ((0 : Fin 1) : Nat)) = 0; (try simp only [Fin.val_zero]); omega

/-- The linear weights are staged whole. -/
theorem w_read (c : Dev nD) (t : Fin cfg0.N) (X : Buf (Elt Ideal) ((c : Thread nD τ).loc (Pipeline.arrRef spec0 3))) (k : Fin 128) (j : Fin 128) :
    View.ld (((cfg0.win 3).blk t).view.read (Elt Ideal) X : Vec Ideal S128x128 .bf16) r0_1 (ix2 k j) = (X : S128x128.Idx → EReal) (ix2 k j) := by
  obtain ⟨e00, e01, e10, e11, e12, e20, e21, e30, e31, e40, e41, e50, e51, e52, e60, e61, e70, e71, e80, e81, ht⟩ := idx_facts t
  show (((cfg0.win 3).blk t).view.read (Elt Ideal) X : Vec Ideal S128x128 .bf16) (r0_1.idx (ix2 k j)) = _
  rw [View.read_apply]
  show (X : S128x128.Idx → EReal) _ = _
  congr 1
  funext ax; apply Fin.ext
  match ax with
  | ⟨0, _⟩ => show win0_3.index t (0 : Fin 2) * 128 + 1 * (0 + 1 * (k : Nat)) = (k : Nat); (try simp only [Fin.val_zero]); omega
  | ⟨1, _⟩ => show win0_3.index t (1 : Fin 2) * 128 + 1 * (0 + 1 * (j : Nat)) = (j : Nat); (try simp only [Fin.val_zero]); omega

/-- The bias row is staged whole. -/
theorem b_read (c : Dev nD) (t : Fin cfg0.N) (X : Buf (Elt Ideal) ((c : Thread nD τ).loc (Pipeline.arrRef spec0 4)))  (j : Fin 128) :
    View.ld (((cfg0.win 4).blk t).view.read (Elt Ideal) X : Vec Ideal S1x128 .f32) r0_2 (ix2 (0 : Fin 1) j) = (X : S1x128.Idx → EReal) (ix2 (0 : Fin 1) j) := by
  obtain ⟨e00, e01, e10, e11, e12, e20, e21, e30, e31, e40, e41, e50, e51, e52, e60, e61, e70, e71, e80, e81, ht⟩ := idx_facts t
  show (((cfg0.win 4).blk t).view.read (Elt Ideal) X : Vec Ideal S1x128 .f32) (r0_2.idx (ix2 (0 : Fin 1) j)) = _
  rw [View.read_apply]
  show (X : S1x128.Idx → EReal) _ = _
  congr 1
  funext ax; apply Fin.ext
  match ax with
  | ⟨0, _⟩ => show win0_4.index t (0 : Fin 2) * 1 + 1 * (0 + 1 * ((0 : Fin 1) : Nat)) = 0; (try simp only [Fin.val_zero]); omega
  | ⟨1, _⟩ => show win0_4.index t (1 : Fin 2) * 128 + 1 * (0 + 1 * (j : Nat)) = (j : Nat); (try simp only [Fin.val_zero]); omega

/-- The scale row is staged whole. -/
theorem g_read (c : Dev nD) (t : Fin cfg0.N) (X : Buf (Elt Ideal) ((c : Thread nD τ).loc (Pipeline.arrRef spec0 6)))  (j : Fin 128) :
    View.ld (((cfg0.win 6).blk t).view.read (Elt Ideal) X : Vec Ideal S1x128 .f32) r0_2 (ix2 (0 : Fin 1) j) = (X : S1x128.Idx → EReal) (ix2 (0 : Fin 1) j) := by
  obtain ⟨e00, e01, e10, e11, e12, e20, e21, e30, e31, e40, e41, e50, e51, e52, e60, e61, e70, e71, e80, e81, ht⟩ := idx_facts t
  show (((cfg0.win 6).blk t).view.read (Elt Ideal) X : Vec Ideal S1x128 .f32) (r0_2.idx (ix2 (0 : Fin 1) j)) = _
  rw [View.read_apply]
  show (X : S1x128.Idx → EReal) _ = _
  congr 1
  funext ax; apply Fin.ext
  match ax with
  | ⟨0, _⟩ => show win0_6.index t (0 : Fin 2) * 1 + 1 * (0 + 1 * ((0 : Fin 1) : Nat)) = 0; (try simp only [Fin.val_zero]); omega
  | ⟨1, _⟩ => show win0_6.index t (1 : Fin 2) * 128 + 1 * (0 + 1 * (j : Nat)) = (j : Nat); (try simp only [Fin.val_zero]); omega

/-- The shift row is staged whole. -/
theorem s_read (c : Dev nD) (t : Fin cfg0.N) (X : Buf (Elt Ideal) ((c : Thread nD τ).loc (Pipeline.arrRef spec0 7)))  (j : Fin 128) :
    View.ld (((cfg0.win 7).blk t).view.read (Elt Ideal) X : Vec Ideal S1x128 .f32) r0_2 (ix2 (0 : Fin 1) j) = (X : S1x128.Idx → EReal) (ix2 (0 : Fin 1) j) := by
  obtain ⟨e00, e01, e10, e11, e12, e20, e21, e30, e31, e40, e41, e50, e51, e52, e60, e61, e70, e71, e80, e81, ht⟩ := idx_facts t
  show (((cfg0.win 7).blk t).view.read (Elt Ideal) X : Vec Ideal S1x128 .f32) (r0_2.idx (ix2 (0 : Fin 1) j)) = _
  rw [View.read_apply]
  show (X : S1x128.Idx → EReal) _ = _
  congr 1
  funext ax; apply Fin.ext
  match ax with
  | ⟨0, _⟩ => show win0_7.index t (0 : Fin 2) * 1 + 1 * (0 + 1 * ((0 : Fin 1) : Nat)) = 0; (try simp only [Fin.val_zero]); omega
  | ⟨1, _⟩ => show win0_7.index t (1 : Fin 2) * 128 + 1 * (0 + 1 * (j : Nat)) = (j : Nat); (try simp only [Fin.val_zero]); omega

/-- Relation 0's aggregate tile: row p is row 2000·t + p of that relation's slab. -/
theorem a0_read (c : Dev nD) (t : Fin cfg0.N) (X : Buf (Elt Ideal) ((c : Thread nD τ).loc (Pipeline.arrRef spec0 1))) (p : Fin 2000)  (k : Fin 128) (hn : t.val * 2000 + p.val < 50000) :
    View.ld (((cfg0.win 1).blk t).view.read (Elt Ideal) X : Vec Ideal S3x2000x128 .f32) r0_3 (ix3 (0 : Fin 1) p k) = (X : S3x50000x128.Idx → EReal) (ix3 (0 : Fin 3) (⟨t.val * 2000 + p.val, hn⟩ : Fin 50000) k) := by
  obtain ⟨e00, e01, e10, e11, e12, e20, e21, e30, e31, e40, e41, e50, e51, e52, e60, e61, e70, e71, e80, e81, ht⟩ := idx_facts t
  show (((cfg0.win 1).blk t).view.read (Elt Ideal) X : Vec Ideal S3x2000x128 .f32) (r0_3.idx (ix3 (0 : Fin 1) p k)) = _
  rw [View.read_apply]
  show (X : S3x50000x128.Idx → EReal) _ = _
  congr 1
  funext ax; apply Fin.ext
  match ax with
  | ⟨0, _⟩ => show win0_1.index t (0 : Fin 3) * 3 + 1 * (0 + 1 * ((0 : Fin 1) : Nat)) = 0; (try simp only [Fin.val_zero]); omega
  | ⟨1, _⟩ => show win0_1.index t (1 : Fin 3) * 2000 + 1 * (0 + 1 * (p : Nat)) = t.val * 2000 + p.val; omega
  | ⟨2, _⟩ => show win0_1.index t (2 : Fin 3) * 128 + 1 * (0 + 1 * (k : Nat)) = (k : Nat); omega

/-- Relation 1's aggregate tile: row p is row 2000·t + p of that relation's slab. -/
theorem a1_read (c : Dev nD) (t : Fin cfg0.N) (X : Buf (Elt Ideal) ((c : Thread nD τ).loc (Pipeline.arrRef spec0 1))) (p : Fin 2000)  (k : Fin 128) (hn : t.val * 2000 + p.val < 50000) :
    View.ld (((cfg0.win 1).blk t).view.read (Elt Ideal) X : Vec Ideal S3x2000x128 .f32) r0_5 (ix3 (0 : Fin 1) p k) = (X : S3x50000x128.Idx → EReal) (ix3 (1 : Fin 3) (⟨t.val * 2000 + p.val, hn⟩ : Fin 50000) k) := by
  obtain ⟨e00, e01, e10, e11, e12, e20, e21, e30, e31, e40, e41, e50, e51, e52, e60, e61, e70, e71, e80, e81, ht⟩ := idx_facts t
  show (((cfg0.win 1).blk t).view.read (Elt Ideal) X : Vec Ideal S3x2000x128 .f32) (r0_5.idx (ix3 (0 : Fin 1) p k)) = _
  rw [View.read_apply]
  show (X : S3x50000x128.Idx → EReal) _ = _
  congr 1
  funext ax; apply Fin.ext
  match ax with
  | ⟨0, _⟩ => show win0_1.index t (0 : Fin 3) * 3 + 1 * (1 + 1 * ((0 : Fin 1) : Nat)) = 1; (try simp only [Fin.val_zero]); omega
  | ⟨1, _⟩ => show win0_1.index t (1 : Fin 3) * 2000 + 1 * (0 + 1 * (p : Nat)) = t.val * 2000 + p.val; omega
  | ⟨2, _⟩ => show win0_1.index t (2 : Fin 3) * 128 + 1 * (0 + 1 * (k : Nat)) = (k : Nat); omega

/-- Relation 2's aggregate tile: row p is row 2000·t + p of that relation's slab. -/
theorem a2_read (c : Dev nD) (t : Fin cfg0.N) (X : Buf (Elt Ideal) ((c : Thread nD τ).loc (Pipeline.arrRef spec0 1))) (p : Fin 2000)  (k : Fin 128) (hn : t.val * 2000 + p.val < 50000) :
    View.ld (((cfg0.win 1).blk t).view.read (Elt Ideal) X : Vec Ideal S3x2000x128 .f32) r0_7 (ix3 (0 : Fin 1) p k) = (X : S3x50000x128.Idx → EReal) (ix3 (2 : Fin 3) (⟨t.val * 2000 + p.val, hn⟩ : Fin 50000) k) := by
  obtain ⟨e00, e01, e10, e11, e12, e20, e21, e30, e31, e40, e41, e50, e51, e52, e60, e61, e70, e71, e80, e81, ht⟩ := idx_facts t
  show (((cfg0.win 1).blk t).view.read (Elt Ideal) X : Vec Ideal S3x2000x128 .f32) (r0_7.idx (ix3 (0 : Fin 1) p k)) = _
  rw [View.read_apply]
  show (X : S3x50000x128.Idx → EReal) _ = _
  congr 1
  funext ax; apply Fin.ext
  match ax with
  | ⟨0, _⟩ => show win0_1.index t (0 : Fin 3) * 3 + 1 * (2 + 1 * ((0 : Fin 1) : Nat)) = 2; (try simp only [Fin.val_zero]); omega
  | ⟨1, _⟩ => show win0_1.index t (1 : Fin 3) * 2000 + 1 * (0 + 1 * (p : Nat)) = t.val * 2000 + p.val; omega
  | ⟨2, _⟩ => show win0_1.index t (2 : Fin 3) * 128 + 1 * (0 + 1 * (k : Nat)) = (k : Nat); omega

/-- Relation 0's weights are staged whole. -/
theorem r0_read (c : Dev nD) (t : Fin cfg0.N) (X : Buf (Elt Ideal) ((c : Thread nD τ).loc (Pipeline.arrRef spec0 5))) (k : Fin 128) (j : Fin 128) :
    View.ld (((cfg0.win 5).blk t).view.read (Elt Ideal) X : Vec Ideal S3x128x128 .bf16) r0_4 (ix3 (0 : Fin 1) k j) = (X : S3x128x128.Idx → EReal) (ix3 (0 : Fin 3) k j) := by
  obtain ⟨e00, e01, e10, e11, e12, e20, e21, e30, e31, e40, e41, e50, e51, e52, e60, e61, e70, e71, e80, e81, ht⟩ := idx_facts t
  show (((cfg0.win 5).blk t).view.read (Elt Ideal) X : Vec Ideal S3x128x128 .bf16) (r0_4.idx (ix3 (0 : Fin 1) k j)) = _
  rw [View.read_apply]
  show (X : S3x128x128.Idx → EReal) _ = _
  congr 1
  funext ax; apply Fin.ext
  match ax with
  | ⟨0, _⟩ => show win0_5.index t (0 : Fin 3) * 3 + 1 * (0 + 1 * ((0 : Fin 1) : Nat)) = 0; (try simp only [Fin.val_zero]); omega
  | ⟨1, _⟩ => show win0_5.index t (1 : Fin 3) * 128 + 1 * (0 + 1 * (k : Nat)) = (k : Nat); omega
  | ⟨2, _⟩ => show win0_5.index t (2 : Fin 3) * 128 + 1 * (0 + 1 * (j : Nat)) = (j : Nat); omega

/-- Relation 1's weights are staged whole. -/
theorem r1_read (c : Dev nD) (t : Fin cfg0.N) (X : Buf (Elt Ideal) ((c : Thread nD τ).loc (Pipeline.arrRef spec0 5))) (k : Fin 128) (j : Fin 128) :
    View.ld (((cfg0.win 5).blk t).view.read (Elt Ideal) X : Vec Ideal S3x128x128 .bf16) r0_6 (ix3 (0 : Fin 1) k j) = (X : S3x128x128.Idx → EReal) (ix3 (1 : Fin 3) k j) := by
  obtain ⟨e00, e01, e10, e11, e12, e20, e21, e30, e31, e40, e41, e50, e51, e52, e60, e61, e70, e71, e80, e81, ht⟩ := idx_facts t
  show (((cfg0.win 5).blk t).view.read (Elt Ideal) X : Vec Ideal S3x128x128 .bf16) (r0_6.idx (ix3 (0 : Fin 1) k j)) = _
  rw [View.read_apply]
  show (X : S3x128x128.Idx → EReal) _ = _
  congr 1
  funext ax; apply Fin.ext
  match ax with
  | ⟨0, _⟩ => show win0_5.index t (0 : Fin 3) * 3 + 1 * (1 + 1 * ((0 : Fin 1) : Nat)) = 1; (try simp only [Fin.val_zero]); omega
  | ⟨1, _⟩ => show win0_5.index t (1 : Fin 3) * 128 + 1 * (0 + 1 * (k : Nat)) = (k : Nat); omega
  | ⟨2, _⟩ => show win0_5.index t (2 : Fin 3) * 128 + 1 * (0 + 1 * (j : Nat)) = (j : Nat); omega

/-- Relation 2's weights are staged whole. -/
theorem r2_read (c : Dev nD) (t : Fin cfg0.N) (X : Buf (Elt Ideal) ((c : Thread nD τ).loc (Pipeline.arrRef spec0 5))) (k : Fin 128) (j : Fin 128) :
    View.ld (((cfg0.win 5).blk t).view.read (Elt Ideal) X : Vec Ideal S3x128x128 .bf16) r0_8 (ix3 (0 : Fin 1) k j) = (X : S3x128x128.Idx → EReal) (ix3 (2 : Fin 3) k j) := by
  obtain ⟨e00, e01, e10, e11, e12, e20, e21, e30, e31, e40, e41, e50, e51, e52, e60, e61, e70, e71, e80, e81, ht⟩ := idx_facts t
  show (((cfg0.win 5).blk t).view.read (Elt Ideal) X : Vec Ideal S3x128x128 .bf16) (r0_8.idx (ix3 (0 : Fin 1) k j)) = _
  rw [View.read_apply]
  show (X : S3x128x128.Idx → EReal) _ = _
  congr 1
  funext ax; apply Fin.ext
  match ax with
  | ⟨0, _⟩ => show win0_5.index t (0 : Fin 3) * 3 + 1 * (2 + 1 * ((0 : Fin 1) : Nat)) = 2; (try simp only [Fin.val_zero]); omega
  | ⟨1, _⟩ => show win0_5.index t (1 : Fin 3) * 128 + 1 * (0 + 1 * (k : Nat)) = (k : Nat); omega
  | ⟨2, _⟩ => show win0_5.index t (2 : Fin 3) * 128 + 1 * (0 + 1 * (j : Nat)) = (j : Nat); omega

end Cert.KernelIdeal.Arr

end
-- ==== Proof.KernelArray.lean ====
/-
  From the kernel's blocks to its output array.

  Row p of what grid point t writes back is row n = 2000·t + p of one whole-array function (Spec.outArr) of the eight arrays
  the region reads, whatever those arrays hold; the 25 blocks of 2000 rows cover the 50000 rows.  So the output array ends
  holding that function of the arrays the region finds.
-/
import proofs.«421003_j67817533604356_2_alg».proof.Proof.KernelReads

open scoped BigOperators

noncomputable section

namespace Cert.KernelIdeal.Arr

open Cert.KernelIdeal Cert.KernelIdeal.Gen Idealize.ShloMosaic Idealize.ShloMosaic.ValueIdx Cert.Lib Cert.Spec Cert.KernelIdeal.Block
open Idealize.ShloMosaic.TcCoe Idealize.SL.Sem
open Idealize.ShloMosaic.Pipeline (Dat)

variable (m : (ℓ : Loc nD τ sig) → Buf (Elt Ideal) ℓ) (ρ : Dev nD → PrngReg)

/-- The output window's blocks are never cut short: what a point writes back is the whole staged block. -/
theorem cut_apply (t : Fin cfg0.N) (X : S2000x128.Idx → EReal) (p : Fin 2000) (q : Fin 128) :
    (cfg0.win 8).cut (grid0.coords t) X (ix2 p q) = X (ix2 p q) := by
  show X ((cfg0.win 8).xinj (grid0.coords t) (ix2 p q)) = X (ix2 p q)
  rfl

/-- Entry (p, q) of the output window's block at point t is entry (2000·t + p, q) of the array. -/
theorem out_read (c : Dev nD) (t : Fin cfg0.N) (G : S50000x128.Idx → EReal) (p : Fin 2000) (q : Fin 128) (hn : t.val * 2000 + p.val < 50000) :
    ((cfg0.win 8).blk t).view.read (Elt Ideal) G (ix2 p q) = G (ix2 (⟨t.val * 2000 + p.val, hn⟩ : Fin 50000) q) := by
  obtain ⟨e00, e01, e10, e11, e12, e20, e21, e30, e31, e40, e41, e50, e51, e52, e60, e61, e70, e71, e80, e81, ht⟩ := idx_facts t
  rw [View.read_apply]
  show G _ = _
  congr 1
  funext ax; apply Fin.ext
  match ax with
  | ⟨0, _⟩ => show win0_8.index t (0 : Fin 2) * 2000 + 1 * p.val = t.val * 2000 + p.val; omega
  | ⟨1, _⟩ => show win0_8.index t (1 : Fin 2) * 128 + 1 * q.val = q.val; omega

set_option maxHeartbeats 4000000 in
/-- WHAT POINT t WRITES BACK is block t of the whole-array function, for any contents of the eight arrays. -/
theorem flushed_gen (c : Dev nD) (t : Fin cfg0.N)
    (X0 : Buf (Elt Ideal) ((c : Thread nD τ).loc (Pipeline.arrRef spec0 0)))
    (X1 : Buf (Elt Ideal) ((c : Thread nD τ).loc (Pipeline.arrRef spec0 1)))
    (X2 : Buf (Elt Ideal) ((c : Thread nD τ).loc (Pipeline.arrRef spec0 2)))
    (X3 : Buf (Elt Ideal) ((c : Thread nD τ).loc (Pipeline.arrRef spec0 3)))
    (X4 : Buf (Elt Ideal) ((c : Thread nD τ).loc (Pipeline.arrRef spec0 4)))
    (X5 : Buf (Elt Ideal) ((c : Thread nD τ).loc (Pipeline.arrRef spec0 5)))
    (X6 : Buf (Elt Ideal) ((c : Thread nD τ).loc (Pipeline.arrRef spec0 6)))
    (X7 : Buf (Elt Ideal) ((c : Thread nD τ).loc (Pipeline.arrRef spec0 7))) :
    (cfg0.win 8).cut (grid0.coords t) (out0_8 (((cfg0.win 0).blk t).view.read (Elt Ideal) X0) (((cfg0.win 1).blk t).view.read (Elt Ideal) X1) (((cfg0.win 2).blk t).view.read (Elt Ideal) X2) (((cfg0.win 3).blk t).view.read (Elt Ideal) X3) (((cfg0.win 4).blk t).view.read (Elt Ideal) X4) (((cfg0.win 5).blk t).view.read (Elt Ideal) X5) (((cfg0.win 6).blk t).view.read (Elt Ideal) X6) (((cfg0.win 7).blk t).view.read (Elt Ideal) X7))
      = ((cfg0.win 8).blk t).view.read (Elt Ideal) (outArr (X0 : S50000x128.Idx → EReal) (X1 : S3x50000x128.Idx → EReal) (X2 : S50000x1.Idx → EReal) (X3 : S128x128.Idx → EReal) (X4 : S1x128.Idx → EReal) (X5 : S3x128x128.Idx → EReal) (X6 : S1x128.Idx → EReal) (X7 : S1x128.Idx → EReal)) := by
  funext y
  obtain ⟨p, q, rfl⟩ : ∃ (p : Fin 2000) (q : Fin 128), y = ix2 p q := ⟨y 0, y 1, eq_ix2 y⟩
  obtain ⟨e00, e01, e10, e11, e12, e20, e21, e30, e31, e40, e41, e50, e51, e52, e60, e61, e70, e71, e80, e81, ht⟩ := idx_facts t
  have hn : t.val * 2000 + p.val < 50000 := by have := p.isLt; omega
  refine (cut_apply t _ p q).trans ?_
  unfold out0_8
  rewrite [canon_apply]
  refine Eq.trans ?_ (out_read c t _ p q hn).symm
  show _ = outRow _ _ _ _ _ _ _ _ (⟨t.val * 2000 + p.val, hn⟩ : Fin 50000) q
  unfold outRow hTile
  simp only [fun k => x_read c t X0 p k hn, d_read c t X2 p hn, w_read c t X3, b_read c t X4, g_read c t X6, s_read c t X7,
    fun k => a0_read c t X1 p k hn, fun k => a1_read c t X1 p k hn, fun k => a2_read c t X1 p k hn,
    r0_read c t X5, r1_read c t X5, r2_read c t X5]

/-- The output array as a function of the arrays the region finds. -/
abbrev outK (c : Dev nD) : S50000x128.Idx → EReal :=
  outArr (V m c (Pipeline.arrRef spec0 0) : S50000x128.Idx → EReal)
    (V m c (Pipeline.arrRef spec0 1) : S3x50000x128.Idx → EReal)
    (V m c (Pipeline.arrRef spec0 2) : S50000x1.Idx → EReal)
    (V m c (Pipeline.arrRef spec0 3) : S128x128.Idx → EReal)
    (V m c (Pipeline.arrRef spec0 4) : S1x128.Idx → EReal)
    (V m c (Pipeline.arrRef spec0 5) : S3x128x128.Idx → EReal)
    (V m c (Pipeline.arrRef spec0 6) : S1x128.Idx → EReal)
    (V m c (Pipeline.arrRef spec0 7) : S1x128.Idx → EReal)

/-- What point t writes back, in terms of the arrays the region finds. -/
theorem flushed_eq (c : Dev nD) (t : Fin cfg0.N) :
    (dats m 0 c).flushed 8 t = ((cfg0.win 8).blk t).view.read (Elt Ideal) (outK m c) := by
  rw [Value.flushed8]
  unfold iblk
  exact flushed_gen c t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))

/-- An index of the array is in point t's block iff each coordinate is in the block's range on its axis. -/
theorem mem_blk (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v24).slice (win0_8.rect t)).set ↔ _
  rw [View.set_slice_whole, Rect.mem_set_unit]
  exact Iff.rfl

/-- The 25 blocks of 2000 rows cover the 50000 rows: row r is in block r / 2000. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht0, ht1⟩ := idx_onto ⟨(i 0).val / 2000, by omega⟩
  have ht0' : win0_8.index t (0 : Fin 2) = (i 0).val / 2000 := ht0
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- THE ARRAY after the run is the whole-array function of the arrays the region finds. -/
theorem final (c : Dev nD) : (dats m 0 c).arrAt 8 cfg0.N = outK m c :=
  (dats m 0 c).arrAt_eq_of_cover 8 (outK m c) (fun t _ => flushed_eq m c t) cover

/-- The kernel's run, with its result array at the whole-array function and the arguments unchanged. -/
theorem run : θ_run defs (onTc (τ := τ) (main (F := Ideal))) ⟨m, fun _ => 0, ρ⟩ fun r => ∀ c : Dev nD,
      r.2.mem ((c : Thread nD τ).loc main_v24) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Arr

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.KernelHost.lean ====
/-
  What the kernel region finds in its eight operand arrays.

  Before the call the program slices the edge table into its source and destination rows, gathers the source rows of the
  node features (an index below 0 wraps once by the number of nodes; a row whose wrapped index is out of range is filled
  with the not-a-number word), keys each edge by relation · 50000 + destination and scatter-adds the gathered rows into a
  [150000, 128] table read back as [3, 50000, 128], scatter-adds ones by destination into the degree vector, and lays the
  remaining operands out as the call wants them (format changes are the identity on the extended reals).  Each operand
  array, as the region finds it, is the corresponding stage of the arguments.
-/
import proofs.«421003_j67817533604356_2_alg».proof.Proof.Gen.KernelIdeal.Frame
import Idealize.ShloMosaic.Lib.StableHlo.Run
import Idealize.ShloMosaic.PureOps.Ideal
import proofs.«421003_j67817533604356_2_alg».proof.Proof.LibTRefCast

noncomputable section

namespace Cert.KernelIdeal.Host

open Cert.KernelIdeal Idealize.ShloMosaic Idealize.ShloMosaic.TcCoe Idealize.SL.Sem Idealize.ShloMosaic.StableHlo
open Cert.KernelIdeal.Facts₀

/-- The edges' source node words. -/
def srcK (a1 : IVec S2x600000 32) : IVec S600000 32 :=
  shapeCast S600000 (extractStridedSlice S1x600000 ![0, 0] a1 slices_S2x600000_S1x600000_0_0) shapeCasts_S1x600000_S600000

/-- The edges' destination node words. -/
def dstK (a1 : IVec S2x600000 32) : IVec S600000 32 :=
  shapeCast S600000 (extractStridedSlice S1x600000 ![1, 0] a1 slices_S2x600000_S1x600000_1_0) shapeCasts_S1x600000_S600000

/-- The source words with a negative word wrapped once by the number of nodes, as a column of start indices. -/
def colK (a1 : IVec S2x600000 32) : IVec S600000x1 32 :=
  broadcastInDim S600000x1 ![0] bcast_S600000_S600000x1_0
    (select (cmpi .slt (srcK a1) (broadcastInDim S600000 ![] bcast_S_S600000 (constantI S_ 32 0#32)))
      (addi (srcK a1) (broadcastInDim S600000 ![] bcast_S_S600000 (constantI S_ 32 50000#32))) (srcK a1))

/-- Which edges' wrapped source index lies in [0, 49999]. -/
def maskK (a1 : IVec S2x600000 32) : IVec S600000 1 :=
  Host.reduce IntOp.andi
    (andi (cmpi .sge (colK a1) (broadcastInDim S600000x1 ![] bcast_S_S600000x1 (constantI S_ 32 0#32)))
      (cmpi .sle (colK a1) (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- The gathered source rows, an out-of-range row filled with the not-a-number word. -/
def takeK (a0 : FVec Ideal S50000x128 .f32) (a1 : IVec S2x600000 32) : FVec Ideal S600000x128 .f32 :=
  select (broadcastInDim S600000x128 ![0] bcast_S600000_S600000x128_0 (maskK a1))
    (Host.gather gather_S50000x128_S600000x1_S600000x128_1_0_n_n_0_1_1128 a0 (colK a1))
    (broadcastInDim S600000x128 ![] bcast_S_S600000x128 (constant S_ .f32 0x7FC00000#32))

/-- The edges' keys: relation · 50000 + destination, in 32-bit words. -/
def segK (a1 : IVec S2x600000 32) (a2 : IVec S600000 32) : IVec S600000 32 :=
  addi (muli a2 (broadcastInDim S600000 ![] bcast_S_S600000 (constantI S_ 32 50000#32))) (dstK a1)

/-- The per-relation aggregates. -/
def agg3K (a0 : FVec Ideal S50000x128 .f32) (a1 : IVec S2x600000 32) (a2 : IVec S600000 32) : FVec Ideal S3x50000x128 .f32 :=
  shapeCast S3x50000x128
    (Host.scatterAdd scatter_S150000x128_S600000x1_S600000x128_1_0_0_1
      (broadcastInDim S150000x128 ![] bcast_S_S150000x128 (constant S_ .f32 0x00000000#32))
      (broadcastInDim S600000x1 ![0] bcast_S600000_S600000x1_0 (segK a1 a2)) (takeK a0 a1))
    shapeCasts_S150000x128_S3x50000x128

/-- The in-degree column. -/
def degK (a1 : IVec S2x600000 32) : FVec Ideal S50000x1 .f32 :=
  broadcastInDim S50000x1 ![0] bcast_S50000_S50000x1_0
    (Host.scatterAdd scatter_S50000_S600000x1_S600000_n_0_0_1
      (broadcastInDim S50000 ![] bcast_S_S50000 (constant S_ .f32 0x00000000#32))
      (broadcastInDim S600000x1 ![0] bcast_S600000_S600000x1_0 (dstK a1))
      (broadcastInDim S600000 ![] bcast_S_S600000 (constant S_ .f32 0x3F800000#32)))

open Cert.KernelIdeal.Gen

variable (m : (ℓ : Loc nD τ sig) → Buf (Elt Ideal) ℓ)

/-- The feature operand is the features (the narrowing is the identity). -/
theorem feat_eq (c : Dev nD) : (V m c main_v17 : S50000x128.Idx → EReal) = ((m ((c : Thread nD τ).loc main_arg0)) : S50000x128.Idx → EReal) := by
  dsimp only [V]
  simp only [hostOps0, hostOps0_1, hostOps0_2, List.flatten_cons, List.flatten_nil, List.append_nil, List.cons_append, List.nil_append]
  after_results <;> rfl

/-- The relation-weight operand is the relation weights. -/
theorem relw_eq (c : Dev nD) : (V m c main_v18 : S3x128x128.Idx → EReal) = ((m ((c : Thread nD τ).loc main_arg3)) : S3x128x128.Idx → EReal) := by
  dsimp only [V]
  simp only [hostOps0, hostOps0_1, hostOps0_2, List.flatten_cons, List.flatten_nil, List.append_nil, List.cons_append, List.nil_append]
  after_results <;> rfl

/-- The linear-weight operand is the transposed linear weights. -/
theorem linw_eq (c : Dev nD) : (V m c main_v20 : S128x128.Idx → EReal)
    = transpose S128x128 [1, 0] ((m ((c : Thread nD τ).loc main_arg4)) : S128x128.Idx → EReal) Facts₀.transposes_S128x128_S128x128_1_0 := by
  dsimp only [V]
  simp only [hostOps0, hostOps0_1, hostOps0_2, List.flatten_cons, List.flatten_nil, List.append_nil, List.cons_append, List.nil_append]
  after_results <;> rfl

/-- The bias operand is the bias as a row. -/
theorem bias_eq (c : Dev nD) : (V m c main_v21 : S1x128.Idx → EReal)
    = broadcastInDim S1x128 ![1] Facts₀.bcast_S128_S1x128_1 ((m ((c : Thread nD τ).loc main_arg5)) : S128.Idx → EReal) := by
  dsimp only [V]
  simp only [hostOps0, hostOps0_1, hostOps0_2, List.flatten_cons, List.flatten_nil, List.append_nil, List.cons_append, List.nil_append]
  after_results <;> rfl

/-- The scale operand is the scale as a row. -/
theorem scale_eq (c : Dev nD) : (V m c main_v22 : S1x128.Idx → EReal)
    = broadcastInDim S1x128 ![1] Facts₀.bcast_S128_S1x128_1 ((m ((c : Thread nD τ).loc main_arg6)) : S128.Idx → EReal) := by
  dsimp only [V]
  simp only [hostOps0, hostOps0_1, hostOps0_2, List.flatten_cons, List.flatten_nil, List.append_nil, List.cons_append, List.nil_append]
  after_results <;> rfl

/-- The shift operand is the shift as a row. -/
theorem shift_eq (c : Dev nD) : (V m c main_v23 : S1x128.Idx → EReal)
    = broadcastInDim S1x128 ![1] Facts₀.bcast_S128_S1x128_1 ((m ((c : Thread nD τ).loc main_arg7)) : S128.Idx → EReal) := by
  dsimp only [V]
  simp only [hostOps0, hostOps0_1, hostOps0_2, List.flatten_cons, List.flatten_nil, List.append_nil, List.cons_append, List.nil_append]
  after_results <;> rfl

/-- The degree operand is the in-degree column. -/
theorem deg_eq (c : Dev nD) : (V m c main_v16 : S50000x1.Idx → EReal) = degK ((m ((c : Thread nD τ).loc main_arg1)) : IVec S2x600000 32) := by
  dsimp only [V]
  simp only [hostOps0, hostOps0_1, hostOps0_2, List.flatten_cons, List.flatten_nil, List.append_nil, List.cons_append, List.nil_append]
  after_results <;> rfl

/-- The wrapped start column, folded. -/
theorem col_fold (a1 : IVec S2x600000 32) :
    broadcastInDim S600000x1 ![0] Facts₀.bcast_S600000_S600000x1_0
      (select (cmpi .slt (srcK a1) (broadcastInDim S600000 ![] Facts₀.bcast_S_S600000 (constantI S_ 32 0#32)))
        (addi (srcK a1) (broadcastInDim S600000 ![] Facts₀.bcast_S_S600000 (constantI S_ 32 50000#32))) (srcK a1)) = colK a1 := rfl

/-- The in-range test, folded. -/
theorem mask_fold (a1 : IVec S2x600000 32) :
    Host.reduce IntOp.andi
      (andi (cmpi .sge (colK a1) (broadcastInDim S600000x1 ![] Facts₀.bcast_S_S600000x1 (constantI S_ 32 0#32)))
        (cmpi .sle (colK a1) (broadcastInDim S600000x1 ![0, 1] Facts₀.bcast_S1x1_S600000x1_0_1 (broadcastInDim S1x1 ![1] Facts₀.bcast_S1_S1x1_1 (constantI S1 32 49999#32)))))
      (constantI S_ 1 1#1) Facts₀.reducesTo_S600000x1_S600000_d1 Facts₀.h_S_ = maskK a1 := rfl

/-- Contents written through the gathered rows' typed reference are the contents. -/
theorem toBuf_take (X : FVec Ideal S600000x128 .f32) :
    ((TRef.of (T := ⟨S600000x128, .f32⟩) main_v4).toBuf (Val := Elt Ideal) X : FVec Ideal S600000x128 .f32) = X := rfl

/-- The gathered rows, folded. -/
theorem take_fold (a0 : FVec Ideal S50000x128 .f32) (a1 : IVec S2x600000 32) :
    (select (broadcastInDim S600000x128 ![0] Facts₀.bcast_S600000_S600000x128_0 (maskK a1))
        (Host.gather gather_S50000x128_S600000x1_S600000x128_1_0_n_n_0_1_1128 a0 (colK a1))
        (broadcastInDim S600000x128 ![] Facts₀.bcast_S_S600000x128 (constant (F := Ideal) S_ .f32 0x7FC00000#32)) : FVec Ideal S600000x128 .f32)
      = takeK a0 a1 := rfl

/-- The per-relation aggregates, folded (the result buffer's shape is the literal one). -/
theorem agg_fold (a0 : FVec Ideal S50000x128 .f32) (a1 : IVec S2x600000 32) (a2 : IVec S600000 32) :
    ((fun i => shapeCast main_v11.ty.shape
        (Host.scatterAdd scatter_S150000x128_S600000x1_S600000x128_1_0_0_1
          (broadcastInDim S150000x128 ![] Facts₀.bcast_S_S150000x128 (constant (F := Ideal) S_ .f32 0x00000000#32))
          (broadcastInDim S600000x1 ![0] Facts₀.bcast_S600000_S600000x1_0 (segK a1 a2)) (takeK a0 a1))
        Facts₀.shapeCasts_S150000x128_S3x50000x128 i) : FVec Ideal S3x50000x128 .f32) = agg3K a0 a1 a2 := rfl

/-- The key words, folded. -/
theorem seg_fold (a1 : IVec S2x600000 32) (a2 : IVec S600000 32) :
    addi (muli a2 (broadcastInDim S600000 ![] Facts₀.bcast_S_S600000 (constantI S_ 32 50000#32))) (dstK a1) = segK a1 a2 := rfl

/-- The source-word stage as the region's program spells it. -/
theorem src_piece (c : Dev nD) : ((TRef.of (T := ⟨S600000, .i32⟩) main_v1).ofBuf (Val := Elt Ideal) (fun i => shapeCast main_v1.ty.shape (extractStridedSlice S1x600000 ![0, 0] (m (c, Proc.tc.devRef main_arg1)) Facts₀.slices_S2x600000_S1x600000_0_0) Facts₀.shapeCasts_S1x600000_S600000 i) : IVec S600000 32)
    = srcK ((m ((c : Thread nD τ).loc main_arg1)) : IVec S2x600000 32) := rfl

/-- The destination-word stage as the region's program spells it. -/
theorem dst_piece (c : Dev nD) : ((fun i => shapeCast main_v3.ty.shape (extractStridedSlice S1x600000 ![1, 0] (m (c, Proc.tc.devRef main_arg1)) Facts₀.slices_S2x600000_S1x600000_1_0) Facts₀.shapeCasts_S1x600000_S600000 i) : IVec S600000 32)
    = dstK ((m ((c : Thread nD τ).loc main_arg1)) : IVec S2x600000 32) := rfl

/-- The features read through their typed reference are the features. -/
theorem feat_piece (c : Dev nD) : ((TRef.of (T := ⟨S50000x128, .f32⟩) main_arg0).ofBuf (Val := Elt Ideal) (m (c, Proc.tc.devRef main_arg0)) : S50000x128.Idx → EReal)
    = ((m ((c : Thread nD τ).loc main_arg0)) : S50000x128.Idx → EReal) := rfl

set_option maxHeartbeats 4000000 in
set_option maxRecDepth 100000 in
/-- The aggregate operand is the per-relation aggregates. -/
theorem agg_eq (c : Dev nD) : (V m c main_v11 : S3x50000x128.Idx → EReal)
    = agg3K ((m ((c : Thread nD τ).loc main_arg0)) : S50000x128.Idx → EReal) ((m ((c : Thread nD τ).loc main_arg1)) : IVec S2x600000 32) ((m ((c : Thread nD τ).loc main_arg2)) : IVec S600000 32) := by
  dsimp only [V]
  simp only [hostOps0, hostOps0_1, hostOps0_2, List.flatten_cons, List.flatten_nil, List.append_nil, List.cons_append, List.nil_append]
  after_results
  simp only [Cert.Lib.ofBuf_toBuf]
  simp only [src_piece m c, dst_piece m c, feat_piece m c]
  simp only [col_fold, mask_fold, toBuf_take, seg_fold]
  exact agg_fold _ _ _

end Cert.KernelIdeal.Host

end
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.WordFacts.lean ====
/-
  Small facts about signed comparisons of in-range words and about a conjunction folded over one-bit words.
-/
import Idealize.ShloMosaic.Lib.StableHlo.Predicate
import Idealize.ShloMosaic.Lib.ReduceAll
import Idealize.ShloMosaic.PureOps.Ideal

namespace Cert.WordFacts

open Idealize.ShloMosaic

/-- A one-bit word that is not 1 is 0. -/
theorem eq_zero_of_ne_one : ∀ (c : BitVec 1), c ≠ 1#1 → c = 0#1 := by decide

theorem zero_toInt : (0#32 : BitVec 32).toInt = 0 := by decide

/-- A word that reads non-negative is not below the zero word. -/
theorem not_slt_zero (w : BitVec 32) (h : 0 ≤ w.toInt) : IntOp.cmpi .slt w (0#32) = 0#1 := by
  refine eq_zero_of_ne_one _ fun hc => ?_
  unfold IntOp.cmpi at hc
  rw [StableHlo.Predicate.ofBool_eq_one_iff] at hc
  simp only [BitVec.slt, decide_eq_true_eq] at hc
  have hz := zero_toInt
  omega

/-- A word that reads non-negative is at least the zero word. -/
theorem sge_zero (w : BitVec 32) (h : 0 ≤ w.toInt) : IntOp.cmpi .sge w (0#32) = 1#1 := by
  unfold IntOp.cmpi
  rw [StableHlo.Predicate.ofBool_eq_one_iff]
  simp only [BitVec.sle, decide_eq_true_eq]
  have hz := zero_toInt
  omega

/-- A word that reads at most n is at most the word of n (n below 2³¹). -/
theorem sle_ofNat (w : BitVec 32) (n : Nat) (hn : n < 2 ^ 31) (h : w.toInt ≤ (n : Int)) : IntOp.cmpi .sle w (BitVec.ofNat 32 n) = 1#1 := by
  unfold IntOp.cmpi
  rw [StableHlo.Predicate.ofBool_eq_one_iff]
  simp only [BitVec.sle, decide_eq_true_eq]
  rw [StableHlo.Predicate.toInt_ofNat_small n hn]
  exact h

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_one f l _ (IntOp.andi_eq_one.2 ⟨h, hl a (List.mem_cons_self ..)⟩) (fun n hn => hl n (List.mem_cons_of_mem _ hn))

/-- A reduce by `and` from the constant 1 of an array whose entries are all 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_one x _ _ hinit (fun n _ => hx n)

/-- At the exact instance the host's accumulating scatter is the exact one: the operand plus the updates that land. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

end Cert.WordFacts
-- ==== Proof.KernelEdges.lean ====
/-
  The kernel's gather and scatters, edge by edge.

  With every source word a node number, the wrapped start index is the source word itself, the in-range test holds for
  every edge, and the gathered row of edge e is the feature row of its source.  The key column holds
  relation · 50000 + destination, so entry (r, n, k) of the per-relation aggregate sums entry k of the rows of the edges keyed
  r · 50000 + n, and the degree column counts the edges pointing at each node.
-/
import proofs.«421003_j67817533604356_2_alg».proof.Proof.KernelHost
import proofs.«421003_j67817533604356_2_alg».proof.Proof.Spec
import proofs.«421003_j67817533604356_2_alg».proof.Proof.LibGatherRows
import proofs.«421003_j67817533604356_2_alg».proof.Proof.LibScatterAdd
import proofs.«421003_j67817533604356_2_alg».proof.Proof.WordFacts
import Idealize.ShloMosaic.Lib.Pipeline.Value
import Idealize.ShloMosaic.Lib.ValueIdx
import Idealize.ShloMosaic.PureOps.Ideal.Laws

open scoped BigOperators

noncomputable section

namespace Cert.KernelIdeal.Edges

open Cert.KernelIdeal Cert.KernelIdeal.Host Idealize.ShloMosaic Idealize.ShloMosaic.ValueIdx Cert.Spec Cert.WordFacts
open Cert.KernelIdeal.Facts₀

variable (a0 : FVec Ideal S50000x128 .f32) (a1 : IVec S2x600000 32) (a2 : IVec S600000 32)

/-- A scalar word broadcast to any shape reads the word everywhere. -/
theorem bcastI {t : Shape} (h : S_.BroadcastsInDim t ![]) (w : BitVec 32) (i : t.Idx) :
    broadcastInDim t ![] h (constantI S_ 32 w) i = w :=
  StableHlo.Predicate.bcast_scalar h (by decide) _ i

/-- A scalar float constant broadcast to any shape reads its extended real everywhere. -/
theorem bcastF {t : Shape} (h : S_.BroadcastsInDim t ![]) (b : BitVec 32) (i : t.Idx) :
    broadcastInDim t ![] h (constant (F := Ideal) S_ .f32 b) i = Ideal.ofBits .f32 b :=
  StableHlo.Predicate.bcast_scalar h (by decide) _ i

/-- The row scatter's dimension numbers are the plain whole-row ones. -/
theorem rowRec_eq : scatter_S150000x128_S600000x1_S600000x128_1_0_0_1
    = Cert.Lib.rowScatterDims 150000 128 600000 scatter_S150000x128_S600000x1_S600000x128_1_0_0_1_wf := rfl

/-- The vector scatter's dimension numbers are the plain ones. -/
theorem vecRec_eq : scatter_S50000_S600000x1_S600000_n_0_0_1
    = Cert.Lib.vecScatterDims 50000 600000 scatter_S50000_S600000x1_S600000_n_0_0_1_wf := rfl

/-- The source word of edge e. -/
theorem src_apply (e : Fin 600000) : srcK a1 (ix1 e) = a1 (ix2 (0 : Fin 2) e) := by
  unfold srcK
  refine (shapeCast_apply _ shapeCasts_S1x600000_S600000 (ix1 e) (ix2 (0 : Fin 1) e)
    (by rw [Shape.rowMajor_val_two, Shape.rowMajor_val_one]; show 0 * 600000 + e.val = e.val; omega)).trans ?_
  exact extractStridedSlice_apply ![0, 0] a1 slices_S2x600000_S1x600000_0_0 (ix2 (0 : Fin 1) e) (ix2 (0 : Fin 2) e) (fun a => match a with
    | ⟨0, _⟩ => by show 0 = 0 + 0; rfl
    | ⟨1, _⟩ => by show e.val = 0 + e.val; omega)

/-- The destination word of edge e. -/
theorem dst_apply (e : Fin 600000) : dstK a1 (ix1 e) = a1 (ix2 (1 : Fin 2) e) := by
  unfold dstK
  refine (shapeCast_apply _ shapeCasts_S1x600000_S600000 (ix1 e) (ix2 (0 : Fin 1) e)
    (by rw [Shape.rowMajor_val_two, Shape.rowMajor_val_one]; show 0 * 600000 + e.val = e.val; omega)).trans ?_
  exact extractStridedSlice_apply ![1, 0] a1 slices_S2x600000_S1x600000_1_0 (ix2 (0 : Fin 1) e) (ix2 (1 : Fin 2) e) (fun a => match a with
    | ⟨0, _⟩ => by show 1 = 1 + 0; rfl
    | ⟨1, _⟩ => by show e.val = 0 + e.val; omega)

/-- A vector laid out as a [600000, 1] column reads, at (e, u), the vector at e. -/
theorem col_of_vec {α : Type} (v : S600000.Idx → α) (e : Fin 600000) (u : Fin 1) :
    broadcastInDim S600000x1 ![0] bcast_S600000_S600000x1_0 v (ix2 e u) = v (ix1 e) :=
  broadcastInDim_apply _ bcast_S600000_S600000x1_0 v (ix2 e u) (ix1 e) (fun a => match a with
    | ⟨0, _⟩ => by show e.val = if (600000 : Nat) = 1 then 0 else e.val; rw [if_neg (by decide)])

/-- A non-negative source word is its own start index (no wrap). -/
theorem col_apply (hs : ∀ e : Fin 600000, 0 ≤ (a1 (ix2 (0 : Fin 2) e)).toInt) (e : Fin 600000) (u : Fin 1) :
    colK a1 (ix2 e u) = a1 (ix2 (0 : Fin 2) e) := by
  unfold colK
  refine (col_of_vec _ e u).trans ?_
  show Scalar.select (IntOp.cmpi .slt (srcK a1 (ix1 e)) (broadcastInDim S600000 ![] bcast_S_S600000 (constantI S_ 32 0#32) (ix1 e)))
    (IntOp.addi (srcK a1 (ix1 e)) (broadcastInDim S600000 ![] bcast_S_S600000 (constantI S_ 32 50000#32) (ix1 e))) (srcK a1 (ix1 e)) = _
  rw [bcastI, src_apply, not_slt_zero _ (hs e)]
  rfl

/-- The word 49999 laid out as a [600000, 1] column through [1] and [1, 1]. -/
theorem top_apply (i : S600000x1.Idx) :
    broadcastInDim S600000x1 ![0, 1] bcast_S1x1_S600000x1_0_1 (broadcastInDim S1x1 ![1] bcast_S1_S1x1_1 (constantI S1 32 49999#32)) i = 49999#32 := by
  refine (broadcastInDim_apply _ bcast_S1x1_S600000x1_0_1 _ i (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  exact broadcastInDim_apply _ bcast_S1_S1x1_1 _ (ix2 (0 : Fin 1) (0 : Fin 1)) (ix1 (0 : Fin 1)) (fun a => match a with
    | ⟨0, _⟩ => by show 0 = if (1 : Nat) = 1 then 0 else _; rw [if_pos rfl])

/-- Every edge's start index passes the range test. -/
theorem mask_apply (hs : ∀ e : Fin 600000, 0 ≤ (a1 (ix2 (0 : Fin 2) e)).toInt ∧ (a1 (ix2 (0 : Fin 2) e)).toInt < 50000) (e : Fin 600000) :
    maskK a1 (ix1 e) = 1#1 := by
  unfold maskK
  refine reduce_andi_of_all _ _ _ _ _ rfl ?_
  intro i
  obtain ⟨e', u, rfl⟩ : ∃ (e' : Fin 600000) (u : Fin 1), i = ix2 e' u := ⟨i 0, i 1, eq_ix2 i⟩
  show IntOp.andi (IntOp.cmpi .sge (colK a1 (ix2 e' u)) (broadcastInDim S600000x1 ![] bcast_S_S600000x1 (constantI S_ 32 0#32) (ix2 e' u)))
    (IntOp.cmpi .sle (colK a1 (ix2 e' u)) (broadcastInDim S600000x1 ![0, 1] bcast_S1x1_S600000x1_0_1 (broadcastInDim S1x1 ![1] bcast_S1_S1x1_1 (constantI S1 32 49999#32)) (ix2 e' u))) = 1#1
  rw [col_apply a1 (fun e => (hs e).1), bcastI, top_apply, IntOp.andi_eq_one]
  exact ⟨sge_zero _ (hs e').1, sle_ofNat _ 49999 (by decide) (by have := (hs e').2; omega)⟩

/-- The gathered row of edge e is the feature row of its source. -/
theorem take_apply (hs : ∀ e : Fin 600000, 0 ≤ (a1 (ix2 (0 : Fin 2) e)).toInt ∧ (a1 (ix2 (0 : Fin 2) e)).toInt < 50000) (e : Fin 600000) (k : Fin 128) :
    takeK a0 a1 (ix2 e k) = feat a0 a1 e k := by
  unfold takeK
  have hm : broadcastInDim S600000x128 ![0] bcast_S600000_S600000x128_0 (maskK a1) (ix2 e k) = 1#1 := by
    refine (broadcastInDim_apply _ bcast_S600000_S600000x128_0 _ (ix2 e k) (ix1 e) (fun a => match a with
      | ⟨0, _⟩ => by show e.val = if (600000 : Nat) = 1 then 0 else e.val; rw [if_neg (by decide)])).trans ?_
    exact mask_apply a1 hs e
  show Scalar.select (broadcastInDim S600000x128 ![0] bcast_S600000_S600000x128_0 (maskK a1) (ix2 e k))
    (Host.gather (Cert.Lib.rowGatherDims 50000 128 600000 gather_S50000x128_S600000x1_S600000x128_1_0_n_n_0_1_1128_wf) a0 (colK a1) (ix2 e k)) _ = _
  rw [hm, Cert.Lib.gather_rows_apply (by decide)]
  unfold feat srcRow
  show a0 _ = a0 _
  refine congrArg a0 ?_
  funext a; apply Fin.ext
  match a with
  | ⟨0, _⟩ =>
    show min (BitVec.toInt (colK a1 (ix2 e (0 : Fin 1)))).toNat (50000 - 1) = min (BitVec.toInt (a1 (ix2 (0 : Fin 2) e))).toNat 49999
    rw [col_apply a1 (fun e => (hs e).1)]
  | ⟨1, _⟩ => rfl

/-- The key column at edge e. -/
theorem seg_apply (e : Fin 600000) (u : Fin 1) :
    broadcastInDim S600000x1 ![0] bcast_S600000_S600000x1_0 (segK a1 a2) (ix2 e u) = segWord a1 a2 e := by
  refine (col_of_vec _ e u).trans ?_
  unfold segK segWord
  show IntOp.addi (IntOp.muli (a2 (ix1 e)) (broadcastInDim S600000 ![] bcast_S_S600000 (constantI S_ 32 50000#32) (ix1 e))) (dstK a1 (ix1 e)) = _
  rw [bcastI, dst_apply]

/-- THE PER-RELATION AGGREGATE at (r, n, k). -/
theorem agg3_apply (hs : ∀ e : Fin 600000, 0 ≤ (a1 (ix2 (0 : Fin 2) e)).toInt ∧ (a1 (ix2 (0 : Fin 2) e)).toInt < 50000)
    (r : Fin 3) (n : Fin 50000) (k : Fin 128) : agg3K a0 a1 a2 (ix3 r n k) = aggRel a0 a1 a2 r n k := by
  unfold agg3K aggRel
  have hN : r.val * 50000 + n.val < 150000 := by have := r.isLt; have := n.isLt; omega
  refine (shapeCast_apply _ shapeCasts_S150000x128_S3x50000x128 (ix3 r n k) (ix2 (⟨r.val * 50000 + n.val, hN⟩ : Fin 150000) k)
    (by rw [Shape.rowMajor_val_two, Shape.rowMajor_val_three]; rfl)).trans ?_
  rw [scatterAdd_ideal, rowRec_eq, Cert.Lib.scatterAdd_rows_apply, bcastF, Ideal.ofBits_zero_f32, zero_add]
  refine Finset.sum_congr rfl fun e _ => ?_
  rw [seg_apply, take_apply a0 a1 hs]

/-- THE DEGREE COLUMN at n. -/
theorem deg_apply (n : Fin 50000) (u : Fin 1) : degK a1 (ix2 n u) = degOf a1 n := by
  unfold degK degOf
  refine (broadcastInDim_apply _ bcast_S50000_S50000x1_0 _ (ix2 n u) (ix1 n) (fun a => match a with
    | ⟨0, _⟩ => by show n.val = if (50000 : Nat) = 1 then 0 else n.val; rw [if_neg (by decide)])).trans ?_
  rw [scatterAdd_ideal, vecRec_eq, Cert.Lib.scatterAdd_vec_apply, bcastF, Ideal.ofBits_zero_f32, zero_add]
  refine Finset.sum_congr rfl fun e _ => ?_
  rw [col_of_vec, dst_apply, bcastF]

end Cert.KernelIdeal.Edges

end
-- ==== Proof.RefValue.lean ====
/-
  The reference, one output entry at a time.

  Read through its stages, the reference's result at (n, q) is the layer normalisation (Spec.lnRow) of the pre-activation row
  of node n, whose entry j is the features of n times row j of the linear weights, plus the bias, plus the node's scattered
  message sum divided by its clamped in-degree.  The two scatters are kept as named stages here and read in their own module.
-/
import proofs.«421003_j67817533604356_2_alg».proof.Proof.Gen.ReferenceIdeal.Read
import proofs.«421003_j67817533604356_2_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S50000x128, .f32⟩ : BufTy).Contents (Elt Ideal)) (x1 : (⟨S2x600000, .i32⟩ : BufTy).Contents (Elt Ideal))
  (x2 : (⟨S600000, .i32⟩ : BufTy).Contents (Elt Ideal)) (x3 : (⟨S3x128x128, .f32⟩ : BufTy).Contents (Elt Ideal))
  (x4 : (⟨S128x128, .f32⟩ : BufTy).Contents (Elt Ideal)) (x5 x6 x7 : (⟨S128, .f32⟩ : BufTy).Contents (Elt Ideal))

/-- Node n's pre-activation row as the reference computes it. -/
abbrev hRef (n : Fin 50000) : Fin 128 → EReal :=
  hRow (fun j => ∑ k : Fin 128, x0 (ix2 n k) * x4 (ix2 j k)) (fun j => x5 (ix1 j))
    (fun j => val_main_v38 (F := Ideal) x0 x1 x2 x3 (ix2 n j)) (val_main_v42 (F := Ideal) x1 (ix1 n))

/-- The pre-activation stage at (n, j). -/
theorem preact_apply (n : Fin 50000) (j : Fin 128) : val_main_v53 (F := Ideal) x0 x1 x2 x3 x4 x5 (ix2 n j) = hRef x0 x1 x2 x3 x4 x5 n j := by
  unfold hRef hRow
  rw [val_main_v53_apply, val_main_v52_apply, val_main_v49_apply, val_main_v51_apply, val_main_v50_apply, val_main_v47_apply,
    val_main_v46_apply, val_main_v45_apply, val_main_v44_apply, val_main_v43_apply]
  have e1 : ∀ k : Fin 128, lidx_main_v49 (ix2 n j) k = ix2 n k := fun k => by funext a; match a with | ⟨0, _⟩ => rfl | ⟨1, _⟩ => rfl
  have e2 : ∀ k : Fin 128, (val_main_v48 (F := Ideal) x4) (ridx_main_v49 (ix2 n j) k) = x4 (ix2 j k) := fun k => by
    rw [val_main_v48_apply]
    exact congrArg x4 (by funext a; match a with | ⟨0, _⟩ => rfl | ⟨1, _⟩ => rfl)
  have e3 : idx_main_v50 (idx_main_v51 (ix2 n j)) = ix1 j := by funext a; match a with | ⟨0, _⟩ => rfl
  have e4 : idx_main_v45 (idx_main_v46 (ix2 n j)) = ix1 n := by funext a; match a with | ⟨0, _⟩ => rfl
  simp only [e1, e2, e3, e4]
  rfl

/-- The first host sum at node n: the sum of the pre-activation row. -/
theorem rowSum_apply (n : Fin 50000) : val_main_v54 (F := Ideal) x0 x1 x2 x3 x4 x5 (ix1 n) = ∑ k : Fin 128, hRef x0 x1 x2 x3 x4 x5 n k := by
  rw [val_main_v54_apply]
  show Ideal.ofBits .f32 0x00000000#32 + _ = _
  rw [Ideal.ofBits_zero_f32, zero_add]
  refine Finset.sum_congr rfl fun k _ => ?_
  rw [← preact_apply]
  exact congrArg _ (by funext a; match a with | ⟨0, _⟩ => rfl | ⟨1, _⟩ => rfl)

/-- The mean column at node n. -/
theorem mean_apply (n : Fin 50000) : val_main_v57 (F := Ideal) x0 x1 x2 x3 x4 x5 (ix2 n (0 : Fin 1)) = mean (hRef x0 x1 x2 x3 x4 x5 n) := by
  rw [val_main_v57_apply, val_main_v55_apply, val_main_v56_apply]
  have e : idx_main_v55 (ix2 n (0 : Fin 1)) = ix1 n := by funext a; match a with | ⟨0, _⟩ => rfl
  rw [e, rowSum_apply]
  rfl

/-- The centred pre-activation at (n, j), as squared for the variance. -/
theorem centred_apply (n : Fin 50000) (j : Fin 128) :
    val_main_v59 (F := Ideal) x0 x1 x2 x3 x4 x5 (ix2 n j) = hRef x0 x1 x2 x3 x4 x5 n j - mean (hRef x0 x1 x2 x3 x4 x5 n) := by
  rw [val_main_v59_apply, val_main_v58_apply]
  have e : idx_main_v58 (ix2 n j) = ix2 n (0 : Fin 1) := by funext a; match a with | ⟨0, _⟩ => rfl | ⟨1, _⟩ => rfl
  rw [e, mean_apply, preact_apply]
  rfl

/-- The centred pre-activation at (n, j), as scaled for the output. -/
theorem centred_apply' (n : Fin 50000) (j : Fin 128) :
    val_main_v66 (F := Ideal) x0 x1 x2 x3 x4 x5 (ix2 n j) = hRef x0 x1 x2 x3 x4 x5 n j - mean (hRef x0 x1 x2 x3 x4 x5 n) := by
  rw [val_main_v66_apply, val_main_v65_apply]
  have e : idx_main_v65 (ix2 n j) = ix2 n (0 : Fin 1) := by funext a; match a with | ⟨0, _⟩ => rfl | ⟨1, _⟩ => rfl
  rw [e, mean_apply, preact_apply]
  rfl

/-- The variance column at node n. -/
theorem var_apply (n : Fin 50000) : val_main_v64 (F := Ideal) x0 x1 x2 x3 x4 x5 (ix2 n (0 : Fin 1)) = var (hRef x0 x1 x2 x3 x4 x5 n) := by
  rw [val_main_v64_apply, val_main_v62_apply, val_main_v63_apply]
  have e : idx_main_v62 (ix2 n (0 : Fin 1)) = ix1 n := by funext a; match a with | ⟨0, _⟩ => rfl
  rw [e, val_main_v61_apply]
  unfold var
  refine congrArg₂ Ideal.div ?_ rfl
  show Ideal.ofBits .f32 0x00000000#32 + _ = _
  rw [Ideal.ofBits_zero_f32, zero_add]
  refine Finset.sum_congr rfl fun k _ => ?_
  have ek : idx_main_v61 (ix1 n) k = ix2 n k := by funext a; match a with | ⟨0, _⟩ => rfl | ⟨1, _⟩ => rfl
  rw [ek, val_main_v60_apply, centred_apply]
  rfl

/-- THE REFERENCE'S RESULT at (n, q): the layer normalisation of node n's pre-activation row. -/
theorem ref_apply (n : Fin 50000) (q : Fin 128) :
    val_main_v77 (F := Ideal) x0 x1 x2 x3 x4 x5 x6 x7 (ix2 n q)
      = lnRow (hRef x0 x1 x2 x3 x4 x5 n) (fun j => x6 (ix1 j)) (fun j => x7 (ix1 j)) q := by
  rw [val_main_v77_apply, val_main_v74_apply, val_main_v69_apply, val_main_v68_apply, val_main_v67_apply, val_main_v73_apply,
    val_main_v72_apply, val_main_v71_apply, val_main_v70_apply, val_main_v76_apply, val_main_v75_apply]
  have e1 : idx_main_v67 (idx_main_v68 (ix2 n q)) = ix1 q := by funext a; match a with | ⟨0, _⟩ => rfl
  have e2 : idx_main_v73 (ix2 n q) = ix2 n (0 : Fin 1) := by funext a; match a with | ⟨0, _⟩ => rfl | ⟨1, _⟩ => rfl
  have e3 : idx_main_v75 (idx_main_v76 (ix2 n q)) = ix1 q := by funext a; match a with | ⟨0, _⟩ => rfl
  rw [e1, e2, e3, centred_apply', var_apply]
  rfl

end Cert.ReferenceIdeal.RefValue

end
-- ==== Proof.RefEdges.lean ====
/-
  The reference's gather and scatters, edge by edge.

  With every source word a node number, the gathered row of edge e is the feature row of its source; relation r's masked
  message of the edge is that row times the relation's weights when the edge carries r, and 0 otherwise; the scatter by
  destination adds each edge's three messages to the node it points at; and scattering ones by destination counts the edges
  pointing at each node.
-/
import proofs.«421003_j67817533604356_2_alg».proof.Proof.Gen.ReferenceIdeal.Read
import proofs.«421003_j67817533604356_2_alg».proof.Proof.Spec
import proofs.«421003_j67817533604356_2_alg».proof.Proof.LibGatherRows
import proofs.«421003_j67817533604356_2_alg».proof.Proof.LibScatterAdd
import proofs.«421003_j67817533604356_2_alg».proof.Proof.WordFacts
import Idealize.ShloMosaic.Lib.StableHlo.Predicate

open scoped BigOperators

noncomputable section

namespace Cert.ReferenceIdeal.RefEdges

open Cert.ReferenceIdeal Cert.ReferenceIdeal.Read Idealize.ShloMosaic Idealize.ShloMosaic.ValueIdx Cert.Spec Cert.WordFacts
open Cert.ReferenceIdeal.Facts₀

variable (x0 : (⟨S50000x128, .f32⟩ : BufTy).Contents (Elt Ideal)) (x1 : (⟨S2x600000, .i32⟩ : BufTy).Contents (Elt Ideal))
  (x2 : (⟨S600000, .i32⟩ : BufTy).Contents (Elt Ideal)) (x3 : (⟨S3x128x128, .f32⟩ : BufTy).Contents (Elt Ideal))

/-- The row scatter's dimension numbers are the plain whole-row ones. -/
theorem rowRec_eq : scatter_S50000x128_S600000x1_S600000x128_1_0_0_1
    = Cert.Lib.rowScatterDims 50000 128 600000 scatter_S50000x128_S600000x1_S600000x128_1_0_0_1_wf := rfl

/-- The vector scatter's dimension numbers are the plain ones. -/
theorem vecRec_eq : scatter_S50000_S600000x1_S600000_n_0_0_1
    = Cert.Lib.vecScatterDims 50000 600000 scatter_S50000_S600000x1_S600000_n_0_0_1_wf := rfl

/-- The source word of edge e. -/
theorem src_apply (e : Fin 600000) : val_main_v1 (F := Ideal) x1 (ix1 e) = x1 (ix2 (0 : Fin 2) e) := by
  rw [val_main_v1_apply, val_main_v0_apply]
  refine congrArg x1 ?_
  funext a; apply Fin.ext
  match a with
  | ⟨0, _⟩ => rfl
  | ⟨1, _⟩ => show e.val % 600000 = e.val; omega

/-- The destination word of edge e. -/
theorem dst_apply (e : Fin 600000) : val_main_v3 (F := Ideal) x1 (ix1 e) = x1 (ix2 (1 : Fin 2) e) := by
  rw [val_main_v3_apply, val_main_v2_apply]
  refine congrArg x1 ?_
  funext a; apply Fin.ext
  match a with
  | ⟨0, _⟩ => rfl
  | ⟨1, _⟩ => show e.val % 600000 = e.val; omega

/-- A non-negative source word is its own start index (no wrap). -/
theorem start_apply (hs : ∀ e : Fin 600000, 0 ≤ (x1 (ix2 (0 : Fin 2) e)).toInt) (e : Fin 600000) :
    val_main_v9 (F := Ideal) x1 (ix2 e (0 : Fin 1)) = x1 (ix2 (0 : Fin 2) e) := by
  rw [val_main_v9_apply]
  have hidx : idx_main_v9 (ix2 e (0 : Fin 1)) = ix1 e := by funext a; match a with | ⟨0, _⟩ => rfl
  rw [hidx, val_main_v8_apply, val_main_v5_apply, val_main_v4_apply, val_main_c_apply, src_apply, not_slt_zero _ (hs e)]
  rfl

/-- The gathered row of edge e is the feature row of its source. -/
theorem gather_apply (hs : ∀ e : Fin 600000, 0 ≤ (x1 (ix2 (0 : Fin 2) e)).toInt) (e : Fin 600000) (k : Fin 128) :
    val_main_v10 (F := Ideal) x0 x1 (ix2 e k) = feat x0 x1 e k := by
  unfold val_main_v10 feat srcRow
  show Host.gather (Cert.Lib.rowGatherDims 50000 128 600000 gather_S50000x128_S600000x1_S600000x128_1_0_n_n_0_1_1128_wf) x0
    (val_main_v9 (F := Ideal) x1) (ix2 e k) = _
  rw [Cert.Lib.gather_rows_apply (by norm_num)]
  refine congrArg x0 ?_
  funext a; apply Fin.ext
  match a with
  | ⟨0, _⟩ =>
    show min (BitVec.toInt (val_main_v9 (F := Ideal) x1 (ix2 e (0 : Fin 1)))).toNat (50000 - 1) = min (BitVec.toInt (x1 (ix2 (0 : Fin 2) e))).toNat 49999
    rw [start_apply x1 hs]
  | ⟨1, _⟩ => rfl

/-- Relation 0's weight slab, at (k, j). -/
theorem slab0_apply (k j : Fin 128) : val_main_v16 (F := Ideal) x3 (ix2 k j) = x3 (ix3 (0 : Fin 3) k j) := by
  rw [val_main_v16_apply, val_main_v15_apply]
  refine congrArg x3 ?_
  funext a; apply Fin.ext
  match a with
  | ⟨0, _⟩ => rfl
  | ⟨1, _⟩ => show (k.val * 128 + j.val) / 128 % 128 = k.val; omega
  | ⟨2, _⟩ => show (k.val * 128 + j.val) % 128 = j.val; omega

/-- Relation 0's masked message of edge e, entry j. -/
theorem msg0_apply (hs : ∀ e : Fin 600000, 0 ≤ (x1 (ix2 (0 : Fin 2) e)).toInt) (e : Fin 600000) (j : Fin 128) :
    val_main_v18 (F := Ideal) x0 x1 x2 x3 (ix2 e j) = relMsg x0 x1 x2 x3 (0 : Fin 3) e j := by
  rw [val_main_v18_apply, val_main_call0_v0_apply, val_main_v14_apply, val_main_v13_apply, val_main_v12_apply,
    val_main_c_1_apply, val_main_call0_v1_apply, val_main_cst_2_apply, val_main_v17_apply]
  have hidx : idx_main_v14 (idx_main_call0_v0 (ix2 e j)) = ix1 e := by funext a; match a with | ⟨0, _⟩ => rfl
  rw [hidx]
  unfold relMsg
  have hsum : (∑ k : Fin 128, (val_main_v10 (F := Ideal) x0 x1) (lidx_main_v17 (ix2 e j) k) * (val_main_v16 (F := Ideal) x3) (ridx_main_v17 (ix2 e j) k))
      = ∑ k : Fin 128, feat x0 x1 e k * x3 (ix3 (0 : Fin 3) k j) := by
    refine Finset.sum_congr rfl fun k _ => ?_
    have e1 : lidx_main_v17 (ix2 e j) k = ix2 e k := by funext a; match a with | ⟨0, _⟩ => rfl | ⟨1, _⟩ => rfl
    have e2 : ridx_main_v17 (ix2 e j) k = ix2 k j := by funext a; match a with | ⟨0, _⟩ => rfl | ⟨1, _⟩ => rfl
    rw [e1, e2, gather_apply x0 x1 hs, slab0_apply]
  rw [hsum]
  by_cases h : x2 (ix1 e) = 0#32
  · rw [if_pos (show x2 (ix1 e) = BitVec.ofNat 32 (0 : Fin 3).val from h), StableHlo.Predicate.cmpi_eq_iff.mpr h]
    rfl
  · rw [if_neg (show ¬ x2 (ix1 e) = BitVec.ofNat 32 (0 : Fin 3).val from h), eq_zero_of_ne_one _ (fun hc => h (StableHlo.Predicate.cmpi_eq_iff.mp hc))]
    show Ideal.ofBits .f32 0x00000000#32 = 0
    exact Ideal.ofBits_zero_f32

/-- Relation 1's weight slab, at (k, j). -/
theorem slab1_apply (k j : Fin 128) : val_main_v24 (F := Ideal) x3 (ix2 k j) = x3 (ix3 (1 : Fin 3) k j) := by
  rw [val_main_v24_apply, val_main_v23_apply]
  refine congrArg x3 ?_
  funext a; apply Fin.ext
  match a with
  | ⟨0, _⟩ => rfl
  | ⟨1, _⟩ => show (k.val * 128 + j.val) / 128 % 128 = k.val; omega
  | ⟨2, _⟩ => show (k.val * 128 + j.val) % 128 = j.val; omega

/-- Relation 1's masked message of edge e, entry j. -/
theorem msg1_apply (hs : ∀ e : Fin 600000, 0 ≤ (x1 (ix2 (0 : Fin 2) e)).toInt) (e : Fin 600000) (j : Fin 128) :
    val_main_v26 (F := Ideal) x0 x1 x2 x3 (ix2 e j) = relMsg x0 x1 x2 x3 (1 : Fin 3) e j := by
  rw [val_main_v26_apply, val_main_call1_v0_apply, val_main_v22_apply, val_main_v21_apply, val_main_v20_apply,
    val_main_c_3_apply, val_main_call1_v1_apply, val_main_cst_4_apply, val_main_v25_apply]
  have hidx : idx_main_v22 (idx_main_call1_v0 (ix2 e j)) = ix1 e := by funext a; match a with | ⟨0, _⟩ => rfl
  rw [hidx]
  unfold relMsg
  have hsum : (∑ k : Fin 128, (val_main_v10 (F := Ideal) x0 x1) (lidx_main_v25 (ix2 e j) k) * (val_main_v24 (F := Ideal) x3) (ridx_main_v25 (ix2 e j) k))
      = ∑ k : Fin 128, feat x0 x1 e k * x3 (ix3 (1 : Fin 3) k j) := by
    refine Finset.sum_congr rfl fun k _ => ?_
    have e1 : lidx_main_v25 (ix2 e j) k = ix2 e k := by funext a; match a with | ⟨0, _⟩ => rfl | ⟨1, _⟩ => rfl
    have e2 : ridx_main_v25 (ix2 e j) k = ix2 k j := by funext a; match a with | ⟨0, _⟩ => rfl | ⟨1, _⟩ => rfl
    rw [e1, e2, gather_apply x0 x1 hs, slab1_apply]
  rw [hsum]
  by_cases h : x2 (ix1 e) = 1#32
  · rw [if_pos (show x2 (ix1 e) = BitVec.ofNat 32 (1 : Fin 3).val from h), StableHlo.Predicate.cmpi_eq_iff.mpr h]
    rfl
  · rw [if_neg (show ¬ x2 (ix1 e) = BitVec.ofNat 32 (1 : Fin 3).val from h), eq_zero_of_ne_one _ (fun hc => h (StableHlo.Predicate.cmpi_eq_iff.mp hc))]
    show Ideal.ofBits .f32 0x00000000#32 = 0
    exact Ideal.ofBits_zero_f32

/-- Relation 2's weight slab, at (k, j). -/
theorem slab2_apply (k j : Fin 128) : val_main_v32 (F := Ideal) x3 (ix2 k j) = x3 (ix3 (2 : Fin 3) k j) := by
  rw [val_main_v32_apply, val_main_v31_apply]
  refine congrArg x3 ?_
  funext a; apply Fin.ext
  match a with
  | ⟨0, _⟩ => rfl
  | ⟨1, _⟩ => show (k.val * 128 + j.val) / 128 % 128 = k.val; omega
  | ⟨2, _⟩ => show (k.val * 128 + j.val) % 128 = j.val; omega

/-- Relation 2's masked message of edge e, entry j. -/
theorem msg2_apply (hs : ∀ e : Fin 600000, 0 ≤ (x1 (ix2 (0 : Fin 2) e)).toInt) (e : Fin 600000) (j : Fin 128) :
    val_main_v34 (F := Ideal) x0 x1 x2 x3 (ix2 e j) = relMsg x0 x1 x2 x3 (2 : Fin 3) e j := by
  rw [val_main_v34_apply, val_main_call2_v0_apply, val_main_v30_apply, val_main_v29_apply, val_main_v28_apply,
    val_main_c_5_apply, val_main_call2_v1_apply, val_main_cst_6_apply, val_main_v33_apply]
  have hidx : idx_main_v30 (idx_main_call2_v0 (ix2 e j)) = ix1 e := by funext a; match a with | ⟨0, _⟩ => rfl
  rw [hidx]
  unfold relMsg
  have hsum : (∑ k : Fin 128, (val_main_v10 (F := Ideal) x0 x1) (lidx_main_v33 (ix2 e j) k) * (val_main_v32 (F := Ideal) x3) (ridx_main_v33 (ix2 e j) k))
      = ∑ k : Fin 128, feat x0 x1 e k * x3 (ix3 (2 : Fin 3) k j) := by
    refine Finset.sum_congr rfl fun k _ => ?_
    have e1 : lidx_main_v33 (ix2 e j) k = ix2 e k := by funext a; match a with | ⟨0, _⟩ => rfl | ⟨1, _⟩ => rfl
    have e2 : ridx_main_v33 (ix2 e j) k = ix2 k j := by funext a; match a with | ⟨0, _⟩ => rfl | ⟨1, _⟩ => rfl
    rw [e1, e2, gather_apply x0 x1 hs, slab2_apply]
  rw [hsum]
  by_cases h : x2 (ix1 e) = 2#32
  · rw [if_pos (show x2 (ix1 e) = BitVec.ofNat 32 (2 : Fin 3).val from h), StableHlo.Predicate.cmpi_eq_iff.mpr h]
    rfl
  · rw [if_neg (show ¬ x2 (ix1 e) = BitVec.ofNat 32 (2 : Fin 3).val from h), eq_zero_of_ne_one _ (fun hc => h (StableHlo.Predicate.cmpi_eq_iff.mp hc))]
    show Ideal.ofBits .f32 0x00000000#32 = 0
    exact Ideal.ofBits_zero_f32

/-- Edge e's message, entry j: its three relation messages added. -/
theorem msg_apply (hs : ∀ e : Fin 600000, 0 ≤ (x1 (ix2 (0 : Fin 2) e)).toInt) (e : Fin 600000) (j : Fin 128) :
    val_main_v35 (F := Ideal) x0 x1 x2 x3 (ix2 e j)
      = (relMsg x0 x1 x2 x3 0 e j + relMsg x0 x1 x2 x3 1 e j) + relMsg x0 x1 x2 x3 2 e j := by
  rw [val_main_v35_apply, val_main_v27_apply, val_main_v19_apply, val_main_v11_apply, val_main_cst_apply,
    msg0_apply x0 x1 x2 x3 hs, msg1_apply x0 x1 x2 x3 hs, msg2_apply x0 x1 x2 x3 hs]
  show ((Ideal.ofBits .f32 0x00000000#32 + _) + _) + _ = _
  rw [Ideal.ofBits_zero_f32, zero_add]

/-- THE AGGREGATE: the scatter of the messages by destination, at (n, j). -/
theorem agg_apply (hs : ∀ e : Fin 600000, 0 ≤ (x1 (ix2 (0 : Fin 2) e)).toInt) (n : Fin 50000) (j : Fin 128) :
    val_main_v38 (F := Ideal) x0 x1 x2 x3 (ix2 n j) = aggRef x0 x1 x2 x3 n j := by
  unfold val_main_v38 aggRef
  rw [scatterAdd_ideal, rowRec_eq, Cert.Lib.scatterAdd_rows_apply, val_main_v36_apply, val_main_cst_7_apply]
  show Ideal.ofBits .f32 0x00000000#32 + _ = _
  rw [Ideal.ofBits_zero_f32, zero_add]
  refine Finset.sum_congr rfl fun e _ => ?_
  have hidx : val_main_v37 (F := Ideal) x1 (ix2 e (0 : Fin 1)) = x1 (ix2 (1 : Fin 2) e) := by
    rw [val_main_v37_apply]
    have h1 : idx_main_v37 (ix2 e (0 : Fin 1)) = ix1 e := by funext a; match a with | ⟨0, _⟩ => rfl
    rw [h1, dst_apply]
  rw [hidx, msg_apply x0 x1 x2 x3 hs]

/-- THE DEGREE: ones scattered by destination, at n. -/
theorem deg_apply (n : Fin 50000) : val_main_v42 (F := Ideal) x1 (ix1 n) = degOf x1 n := by
  unfold val_main_v42 degOf
  rw [scatterAdd_ideal, vecRec_eq, Cert.Lib.scatterAdd_vec_apply, val_main_v40_apply, val_main_cst_9_apply]
  show Ideal.ofBits .f32 0x00000000#32 + _ = _
  rw [Ideal.ofBits_zero_f32, zero_add]
  refine Finset.sum_congr rfl fun e _ => ?_
  have hidx : val_main_v41 (F := Ideal) x1 (ix2 e (0 : Fin 1)) = x1 (ix2 (1 : Fin 2) e) := by
    rw [val_main_v41_apply]
    have h1 : idx_main_v41 (ix2 e (0 : Fin 1)) = ix1 e := by funext a; match a with | ⟨0, _⟩ => rfl
    rw [h1, dst_apply]
  rw [hidx, val_main_v39_apply, val_main_cst_8_apply]
  rfl

end Cert.ReferenceIdeal.RefEdges

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.RelSum.lean ====
/-
  Moving a weight matrix across a masked sum over edges.

  Fix a target node and an output column.  Over the edges e, let Q e say that edge e points at the node and T e that it
  carries a given relation, and let P e say both at once (the edge's combined relation-and-node key equals the key of the
  pair).  With X e k the k-th entry of the feature row the edge reads and R k the k-th entry of the relation's weight
  column,

      sum over k of (sum over e with P e of X e k) * R k  =  sum over e with Q e and T e of (sum over k of X e k * R k).

  The left side multiplies the summed rows by the weights, the right side sums the already multiplied rows.  The identity
  is distributivity of * over a finite sum and an exchange of two finite sums.  Distributivity fails at the infinities of
  the extended reals, so every entry is asked to be a real number and the identity is the image of the one over the reals.
-/
import proofs.«421003_j67817533604356_2_alg».proof.Proof.LibPropagate

open scoped BigOperators

namespace Cert.RelSum

open Cert.Lib.Propagate

variable {E K : Type} [Fintype E] [Fintype K]

/-- The coercion from the reals commutes with a choice between two reals. -/
theorem coe_ite (p : Prop) [Decidable p] (a b : ℝ) : ((if p then a else b : ℝ) : EReal) = if p then (a : EReal) else (b : EReal) := by
  split <;> rfl

/-- Over the reals: the weights multiply the masked sum of rows, or each masked row first. -/
theorem real_one (X : E → K → ℝ) (R : K → ℝ) (Q T P : E → Prop) [∀ e, Decidable (Q e)] [∀ e, Decidable (T e)]
    [∀ e, Decidable (P e)] (h : ∀ e, P e ↔ Q e ∧ T e) :
    ∑ k, (∑ e, if P e then X e k else 0) * R k
      = ∑ e, if Q e then (if T e then ∑ k, X e k * R k else 0) else 0 := by
  simp only [Finset.sum_mul]
  rw [Finset.sum_comm]
  refine Finset.sum_congr rfl fun e _ => ?_
  by_cases hq : Q e <;> by_cases ht : T e <;> simp [h e, hq, ht]

/-- Over the extended reals, for real entries. -/
theorem ereal_one (X : E → K → EReal) (R : K → EReal) (hX : ∀ e k, ∃ r : ℝ, X e k = (r : EReal))
    (hR : ∀ k, ∃ r : ℝ, R k = (r : EReal))
    (Q T P : E → Prop) [∀ e, Decidable (Q e)] [∀ e, Decidable (T e)] [∀ e, Decidable (P e)] (h : ∀ e, P e ↔ Q e ∧ T e) :
    ∑ k, (∑ e, if P e then X e k else 0) * R k
      = ∑ e, if Q e then (if T e then ∑ k, X e k * R k else 0) else 0 := by
  choose Xr hXr using hX
  choose Rr hRr using hR
  have := congrArg (fun r : ℝ => (r : EReal)) (real_one Xr Rr Q T P h)
  simp only [hXr, hRr]
  simpa only [EReal.coe_add, EReal.coe_mul, coe_finsetSum, coe_ite, EReal.coe_zero] using this

/-- A masked sum of a three-term sum is the sum of the three masked sums (in any commutative additive monoid). -/
theorem sum_mask_add3 {M : Type} [AddCommMonoid M] (Q : E → Prop) [∀ e, Decidable (Q e)] (a b c : E → M) :
    (∑ e, if Q e then (a e + b e + c e) else 0)
      = (∑ e, if Q e then a e else 0) + (∑ e, if Q e then b e else 0) + (∑ e, if Q e then c e else 0) := by
  rw [← Finset.sum_add_distrib, ← Finset.sum_add_distrib]
  refine Finset.sum_congr rfl fun e _ => ?_
  by_cases hq : Q e <;> simp [hq]

end Cert.RelSum
-- ==== Proof.EdgeKey.lean ====
/-
  An edge's combined key names its relation and its destination.

  With the relation word t in [0, 3) and the destination word d in [0, 50000), the 32-bit key t · 50000 + d does not wrap
  (it is below 150000), so read as a signed integer it equals r · 50000 + n exactly when d reads n and t is the word of r:
  the quotient and remainder by 50000 are unique.
-/
import Mathlib.Data.BitVec
import Mathlib.Tactic.SplitIfs
import Idealize.ShloMosaic.PureOps.Float

namespace Cert.EdgeKey

open Idealize.ShloMosaic

/-- A word whose signed reading is in [0, n), n at most 2³¹, has that unsigned reading too. -/
theorem toNat_of_range (w : BitVec 32) (n : Nat) (hn : n ≤ 2 ^ 31) (h0 : 0 ≤ w.toInt) (h1 : w.toInt < (n : Int)) :
    w.toNat < n ∧ w.toInt = (w.toNat : Int) := by
  have hlt := w.isLt
  rw [BitVec.toInt_eq_toNat_cond] at h0 h1 ⊢
  split_ifs at h0 h1 ⊢ with hc
  · exact ⟨by omega, rfl⟩
  · omega

/-- A word below 2³¹ reads the same signed and unsigned. -/
theorem toInt_of_small (w : BitVec 32) (h : w.toNat < 2 ^ 31) : w.toInt = (w.toNat : Int) := by
  rw [BitVec.toInt_eq_toNat_cond]
  split_ifs with hc
  · rfl
  · omega

/-- THE KEY: relation · 50000 + destination reads r · 50000 + n iff the destination reads n and the relation is r. -/
theorem key_iff (t d : BitVec 32) (ht0 : 0 ≤ t.toInt) (ht : t.toInt < 3) (hd0 : 0 ≤ d.toInt) (hd : d.toInt < 50000)
    (r : Fin 3) (n : Fin 50000) :
    (IntOp.addi (IntOp.muli t 50000#32) d).toInt = ((r.val * 50000 + n.val : Nat) : Int)
      ↔ d.toInt = (n.val : Int) ∧ t = BitVec.ofNat 32 r.val := by
  obtain ⟨htn, hti⟩ := toNat_of_range t 3 (by decide) ht0 (by exact_mod_cast ht)
  obtain ⟨hdn, hdi⟩ := toNat_of_range d 50000 (by decide) hd0 (by exact_mod_cast hd)
  have hr := r.isLt
  have hnn := n.isLt
  have hkey : (IntOp.addi (IntOp.muli t 50000#32) d).toNat = t.toNat * 50000 + d.toNat := by
    show (t * 50000#32 + d).toNat = _
    rw [BitVec.toNat_add, BitVec.toNat_mul]
    have h5 : (50000#32 : BitVec 32).toNat = 50000 := by decide
    rw [h5]
    have h1 : t.toNat * 50000 % 2 ^ 32 = t.toNat * 50000 := Nat.mod_eq_of_lt (by omega)
    rw [h1]
    exact Nat.mod_eq_of_lt (by omega)
  rw [toInt_of_small _ (by rw [hkey]; omega), hkey, hdi]
  have hT : t = BitVec.ofNat 32 r.val ↔ t.toNat = r.val := by
    constructor
    · intro h; rw [h, BitVec.toNat_ofNat]; exact Nat.mod_eq_of_lt (by omega)
    · intro h; apply BitVec.eq_of_toNat_eq; rw [h, BitVec.toNat_ofNat]; exact (Nat.mod_eq_of_lt (by omega)).symm
  rw [hT]
  constructor
  · intro h
    have h' : t.toNat * 50000 + d.toNat = r.val * 50000 + n.val := by exact_mod_cast h
    constructor
    · have : d.toNat = n.val := by omega
      exact_mod_cast this
    · omega
  · rintro ⟨h1, h2⟩
    have h1' : d.toNat = n.val := by exact_mod_cast h1
    rw [h1', h2]

end Cert.EdgeKey
-- ==== Proof.EdgeBridge.lean ====
/-
  The kernel's per-relation aggregates times the relation weights are the reference's aggregated messages.

  For a node n and a column j, relation r contributes (sum over the edges keyed r · 50000 + n of their feature rows) times
  column j of the relation's weights on the kernel's side, and the sum over the edges pointing at n and carrying r of (feature
  row times that column) on the reference's side.  An edge is keyed r · 50000 + n exactly when it points at n and carries r,
  and multiplying a finite sum of real rows by real weights is summing the multiplied rows.  Adding the three relations, the
  masked sums combine into the reference's one sum over the edges pointing at n.
-/
import proofs.«421003_j67817533604356_2_alg».proof.Proof.Spec
import proofs.«421003_j67817533604356_2_alg».proof.Proof.RelSum
import proofs.«421003_j67817533604356_2_alg».proof.Proof.EdgeKey

open scoped BigOperators

noncomputable section

namespace Cert.EdgeBridge

open Idealize.ShloMosaic Idealize.ShloMosaic.ValueIdx Cert.Spec

variable (x : (⟨2, ![50000, 128]⟩ : Shape).Idx → EReal) (ei : (⟨2, ![2, 600000]⟩ : Shape).Idx → BitVec 32)
  (et : (⟨1, ![600000]⟩ : Shape).Idx → BitVec 32) (R : (⟨3, ![3, 128, 128]⟩ : Shape).Idx → EReal)

/-- One relation's term. -/
theorem rel_term (hx : ∀ i, ∃ r : ℝ, x i = (r : EReal)) (hR : ∀ i, ∃ r : ℝ, R i = (r : EReal))
    (hd : ∀ e : Fin 600000, 0 ≤ (ei (ix2 (1 : Fin 2) e)).toInt ∧ (ei (ix2 (1 : Fin 2) e)).toInt < 50000)
    (ht : ∀ e : Fin 600000, 0 ≤ (et (ix1 e)).toInt ∧ (et (ix1 e)).toInt < 3) (r : Fin 3) (n : Fin 50000) (j : Fin 128) :
    ∑ k : Fin 128, aggRel x ei et r n k * R (ix3 r k j)
      = ∑ e : Fin 600000, if (ei (ix2 (1 : Fin 2) e)).toInt = (n.val : Int) then relMsg x ei et R r e j else 0 := by
  unfold aggRel relMsg
  exact RelSum.ereal_one (fun e k => feat x ei e k) (fun k => R (ix3 r k j)) (fun e k => hx _) (fun k => hR _)
    (fun e => (ei (ix2 (1 : Fin 2) e)).toInt = (n.val : Int)) (fun e => et (ix1 e) = BitVec.ofNat 32 r.val)
    (fun e => (segWord ei et e).toInt = ((r.val * 50000 + n.val : Nat) : Int))
    (fun e => EdgeKey.key_iff (et (ix1 e)) (ei (ix2 (1 : Fin 2) e)) (ht e).1 (ht e).2 (hd e).1 (hd e).2 r n)

/-- THE BRIDGE: the three relations' terms add up to the reference's aggregate. -/
theorem agg_bridge (hx : ∀ i, ∃ r : ℝ, x i = (r : EReal)) (hR : ∀ i, ∃ r : ℝ, R i = (r : EReal))
    (hd : ∀ e : Fin 600000, 0 ≤ (ei (ix2 (1 : Fin 2) e)).toInt ∧ (ei (ix2 (1 : Fin 2) e)).toInt < 50000)
    (ht : ∀ e : Fin 600000, 0 ≤ (et (ix1 e)).toInt ∧ (et (ix1 e)).toInt < 3) (n : Fin 50000) (j : Fin 128) :
    ((∑ k : Fin 128, aggRel x ei et 0 n k * R (ix3 (0 : Fin 3) k j)) + ∑ k : Fin 128, aggRel x ei et 1 n k * R (ix3 (1 : Fin 3) k j))
        + ∑ k : Fin 128, aggRel x ei et 2 n k * R (ix3 (2 : Fin 3) k j)
      = aggRef x ei et R n j := by
  rw [rel_term x ei et R hx hR hd ht 0 n j, rel_term x ei et R hx hR hd ht 1 n j, rel_term x ei et R hx hR hd ht 2 n j]
  unfold aggRef
  exact (RelSum.sum_mask_add3 _ _ _ _).symm

end Cert.EdgeBridge

end
-- ==== Proof.PreDecode.lean ====
/-
  What the precondition says, entry by entry.

  The precondition is a conjunction of ten whole-array tests: every entry of each float input is finite in absolute value, every
  entry of the edge-index table lies in [0, 50000), and every entry of the edge-type vector lies in [0, 3).  Read at an
  entry: the node features and the relation weights are real numbers (the only finiteness the equivalence uses), each edge
  end is a node number, and each edge type is one of the three relations.
-/
import proofs.«421003_j67817533604356_2_alg».proof.Pre_finite_inputs
import proofs.«421003_j67817533604356_2_alg».proof.Proof.Gen.Pre_finite_inputs
import Idealize.ShloMosaic.Lib.ReduceAll
import Idealize.ShloMosaic.Lib.ValueIdx
import Idealize.ShloMosaic.Lib.Affine
import Idealize.ShloMosaic.Lib.StableHlo.Predicate

noncomputable section

namespace Cert.PreDecode

open Idealize.ShloMosaic Idealize.ShloMosaic.ValueIdx Cert.Pre_finite_inputs

instance : Subsingleton S_.Idx := ⟨fun a b => funext fun d => d.elim0⟩

theorem and1 : ∀ (a b : BitVec 1), IntOp.andi a b = 1#1 ↔ a = 1#1 ∧ b = 1#1 := by decide

/-- An integer comparison of two arrays, at an entry, compares the entries. -/
theorem cmpi_apply {s : Shape} {w : Nat} (p : CmpIPredicate) (a b : IVec s w) (i : s.Idx) : cmpi p a b i = IntOp.cmpi p (a i) (b i) := rfl

theorem ofBool_eq_one (b : Bool) : BitVec.ofBool b = 1#1 ↔ b = true := by cases b <;> decide

/-- An extended real whose absolute value is below +∞ is a real number. -/
theorem finite_of_lt (x : EReal) (h : FloatOps.cmpf (F := Ideal) (φ := .f32) .olt (FloatOps.absf x) (Ideal.ofBits .f32 0x7F800000#32) = 1#1) :
    ∃ r : ℝ, x = (r : EReal) := by
  induction x using EReal.rec with
  | bot =>
    have h' : Ideal.cmp .olt (max (⊥ : EReal) (-⊥)) (Ideal.ofBits .f32 0x7F800000#32) = 1#1 := h
    simp [Ideal.ofBits, Ideal.ieee, Ideal.cmp] at h'
  | coe r => exact ⟨r, rfl⟩
  | top =>
    have h' : Ideal.cmp .olt (max (⊤ : EReal) (-⊤)) (Ideal.ofBits .f32 0x7F800000#32) = 1#1 := h
    simp [Ideal.ofBits, Ideal.ieee, Ideal.cmp] at h'

/-- A word that is at least 0 and below n as signed words reads, as a signed integer, in [0, n). -/
theorem toInt_range (w : BitVec 32) (n : Nat) (hn : n < 2 ^ 31) (h0 : IntOp.cmpi .sge w (0#32) = 1#1)
    (h1 : IntOp.cmpi .slt w (BitVec.ofNat 32 n) = 1#1) : 0 ≤ w.toInt ∧ w.toInt < (n : Int) := by
  unfold IntOp.cmpi at h0 h1
  rw [ofBool_eq_one] at h0 h1
  simp only [BitVec.slt, BitVec.sle, decide_eq_true_eq] at h0 h1
  rw [StableHlo.Predicate.toInt_ofNat_small n hn] at h1
  have hz : (0#32 : BitVec 32).toInt = 0 := by decide
  rw [hz] at h0
  exact ⟨h0, h1⟩

/-- THE PRECONDITION DECODED. -/
theorem decode (x0 : FVec Ideal S50000x128 .f32) (x1 : IVec S2x600000 32) (x2 : IVec S600000 32) (x3 : FVec Ideal S3x128x128 .f32)
    (x4 : FVec Ideal S128x128 .f32) (x5 x6 x7 : FVec Ideal S128 .f32)
    (h : fn (F := Ideal) x0 x1 x2 x3 x4 x5 x6 x7 = fun _ => 1#1) :
    (∀ i, ∃ r : ℝ, x0 i = (r : EReal)) ∧ (∀ i, ∃ r : ℝ, x3 i = (r : EReal))
      ∧ (∀ i, 0 ≤ (x1 i).toInt ∧ (x1 i).toInt < 50000) ∧ (∀ i, 0 ≤ (x2 i).toInt ∧ (x2 i).toInt < 3) := by
  have e := congrFun h ix0
  unfold fn fn_part1 fn_part2 at e
  simp only [andi] at e
  simp only [and1] at e
  obtain ⟨⟨⟨⟨⟨⟨⟨⟨⟨h0, h3⟩, -⟩, -⟩, -⟩, -⟩, hi0⟩, hi1⟩, ht0⟩, ht1⟩ := e
  have a0 := fun i => Host.reduce_andi_all _ _ _ _ _ h0 i
  have a3 := fun i => Host.reduce_andi_all _ _ _ _ _ h3 i
  have b0 := fun i => Host.reduce_andi_all _ _ _ _ _ hi0 i
  have b1 := fun i => Host.reduce_andi_all _ _ _ _ _ hi1 i
  have c0 := fun i => Host.reduce_andi_all _ _ _ _ _ ht0 i
  have c1 := fun i => Host.reduce_andi_all _ _ _ _ _ ht1 i
  refine ⟨fun i => ?_, fun i => ?_, fun i => ?_, fun i => ?_⟩
  · refine finite_of_lt (x0 i) ?_
    have := a0 i
    rw [cmpf_apply, StableHlo.Predicate.bcast_scalar _ (by decide)] at this
    exact this
  · refine finite_of_lt (x3 i) ?_
    have := a3 i
    rw [cmpf_apply, StableHlo.Predicate.bcast_scalar _ (by decide)] at this
    exact this
  · have p0 := b0 i
    have p1 := b1 i
    rw [cmpi_apply, StableHlo.Predicate.bcast_scalar _ (by decide)] at p0 p1
    exact toInt_range (x1 i) 50000 (by decide) p0 p1
  · have p0 := c0 i
    have p1 := c1 i
    rw [cmpi_apply, StableHlo.Predicate.bcast_scalar _ (by decide)] at p0 p1
    exact toInt_range (x2 i) 3 (by decide) p0 p1

end Cert.PreDecode

end
-- ==== Proof.Bridge.lean ====
/-
  The two results are one array.

  Entry (n, q) of both is the layer normalisation of node n's pre-activation row with the same scale and shift.  The
  pre-activations agree term by term: the features times the transposed linear weights, read at (k, j), is the features times
  row j of the weights; the bias row at (0, j) is the bias at j; the degree column at n and the reference's degree stage at n
  both count the edges pointing at n; and the three per-relation aggregates times the relation weights add up to the
  reference's scattered message sum (EdgeBridge), which needs the features and relation weights real and every edge end and
  edge type in range.
-/
import proofs.«421003_j67817533604356_2_alg».proof.Proof.KernelArray
import proofs.«421003_j67817533604356_2_alg».proof.Proof.KernelHost
import proofs.«421003_j67817533604356_2_alg».proof.Proof.KernelEdges
import proofs.«421003_j67817533604356_2_alg».proof.Proof.RefValue
import proofs.«421003_j67817533604356_2_alg».proof.Proof.RefEdges
import proofs.«421003_j67817533604356_2_alg».proof.Proof.EdgeBridge
import proofs.«421003_j67817533604356_2_alg».proof.Proof.PreDecode
import proofs.«421003_j67817533604356_2_alg».proof.Defs

open scoped BigOperators

noncomputable section

namespace Cert.Bridge

open Idealize.ShloMosaic Idealize.ShloMosaic.ValueIdx Idealize.ShloMosaic.TcCoe Idealize.SL.Sem Cert.Spec

section Core

variable (a0 : (⟨2, ![50000, 128]⟩ : Shape).Idx → EReal) (a1 : (⟨2, ![2, 600000]⟩ : Shape).Idx → BitVec 32)
  (a2 : (⟨1, ![600000]⟩ : Shape).Idx → BitVec 32) (a3 : (⟨3, ![3, 128, 128]⟩ : Shape).Idx → EReal)
  (a4 : (⟨2, ![128, 128]⟩ : Shape).Idx → EReal) (a5 a6 a7 : (⟨1, ![128]⟩ : Shape).Idx → EReal)

/-- The transposed weights at (k, j) are the weights at (j, k). -/
theorem tr_apply (k j : Fin 128) :
    transpose Cert.KernelIdeal.S128x128 [1, 0] a4 Cert.KernelIdeal.Facts₀.transposes_S128x128_S128x128_1_0 (ix2 k j) = a4 (ix2 j k) :=
  transpose_apply [1, 0] a4 _ (ix2 k j) (ix2 j k) (fun b => match b with
    | ⟨0, _⟩ => rfl
    | ⟨1, _⟩ => rfl)

/-- A vector laid out as a [1, 128] row reads, at (0, j), the vector at j. -/
theorem row_apply (v : (⟨1, ![128]⟩ : Shape).Idx → EReal) (j : Fin 128) :
    broadcastInDim Cert.KernelIdeal.S1x128 ![1] Cert.KernelIdeal.Facts₀.bcast_S128_S1x128_1 v (ix2 (0 : Fin 1) j) = v (ix1 j) :=
  broadcastInDim_apply _ _ v (ix2 (0 : Fin 1) j) (ix1 j) (fun a => match a with
    | ⟨0, _⟩ => by show j.val = if (128 : Nat) = 1 then 0 else j.val; rw [if_neg (by decide)])

/-- THE CORE: the kernel's whole-array function of its operand stages is the reference's result, entry by entry. -/
theorem core (hx : ∀ i, ∃ r : ℝ, a0 i = (r : EReal)) (hR : ∀ i, ∃ r : ℝ, a3 i = (r : EReal))
    (hidx : ∀ i, 0 ≤ (a1 i).toInt ∧ (a1 i).toInt < 50000) (het : ∀ i, 0 ≤ (a2 i).toInt ∧ (a2 i).toInt < 3)
    (n : Fin 50000) (q : Fin 128) :
    outRow a0 (Cert.KernelIdeal.Host.agg3K a0 a1 a2) (Cert.KernelIdeal.Host.degK a1)
        (transpose Cert.KernelIdeal.S128x128 [1, 0] a4 Cert.KernelIdeal.Facts₀.transposes_S128x128_S128x128_1_0)
        (broadcastInDim Cert.KernelIdeal.S1x128 ![1] Cert.KernelIdeal.Facts₀.bcast_S128_S1x128_1 a5) a3
        (broadcastInDim Cert.KernelIdeal.S1x128 ![1] Cert.KernelIdeal.Facts₀.bcast_S128_S1x128_1 a6)
        (broadcastInDim Cert.KernelIdeal.S1x128 ![1] Cert.KernelIdeal.Facts₀.bcast_S128_S1x128_1 a7) n q
      = Cert.ReferenceIdeal.Read.val_main_v77 (F := Ideal) a0 a1 a2 a3 a4 a5 a6 a7 (ix2 n q) := by
  have hs : ∀ e : Fin 600000, 0 ≤ (a1 (ix2 (0 : Fin 2) e)).toInt ∧ (a1 (ix2 (0 : Fin 2) e)).toInt < 50000 := fun e => hidx _
  have hd : ∀ e : Fin 600000, 0 ≤ (a1 (ix2 (1 : Fin 2) e)).toInt ∧ (a1 (ix2 (1 : Fin 2) e)).toInt < 50000 := fun e => hidx _
  have ht : ∀ e : Fin 600000, 0 ≤ (a2 (ix1 e)).toInt ∧ (a2 (ix1 e)).toInt < 3 := fun e => het _
  rw [Cert.ReferenceIdeal.RefValue.ref_apply]
  unfold outRow Cert.ReferenceIdeal.RefValue.hRef
  simp only [tr_apply, row_apply, Cert.KernelIdeal.Edges.agg3_apply a0 a1 a2 hs, Cert.KernelIdeal.Edges.deg_apply a1,
    Cert.EdgeBridge.agg_bridge a0 a1 a2 a3 hx hR hd ht, Cert.ReferenceIdeal.RefEdges.agg_apply a0 a1 a2 a3 (fun e => (hs e).1),
    Cert.ReferenceIdeal.RefEdges.deg_apply a1]
  congr 1
  · congr 1
    · funext j
      exact Finset.sum_congr rfl fun x _ => congrArg (a0 (ix2 n x) * ·) (tr_apply a4 x j)
    · funext j
      exact row_apply a5 j
  · funext j
    exact row_apply a6 j
  · funext j
    exact row_apply a7 j

end Core

/-- THE RESULTS AGREE: under the precondition, from memories agreeing on the arguments, the kernel's result array is the
    reference's result term. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Arr.outK m c
      = Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨hx, hR, hidx, het⟩ := Cert.PreDecode.decode _ _ _ _ _ _ _ _ (hpre c)
  funext i
  obtain ⟨n, q, rfl⟩ : ∃ (n : Fin 50000) (q : Fin 128), i = ix2 n q := ⟨i 0, i 1, eq_ix2 i⟩
  show outRow (Cert.KernelIdeal.Gen.V m c Cert.KernelIdeal.main_v17 : Cert.KernelIdeal.S50000x128.Idx → EReal)
    (Cert.KernelIdeal.Gen.V m c Cert.KernelIdeal.main_v11 : Cert.KernelIdeal.S3x50000x128.Idx → EReal)
    (Cert.KernelIdeal.Gen.V m c Cert.KernelIdeal.main_v16 : Cert.KernelIdeal.S50000x1.Idx → EReal)
    (Cert.KernelIdeal.Gen.V m c Cert.KernelIdeal.main_v20 : Cert.KernelIdeal.S128x128.Idx → EReal)
    (Cert.KernelIdeal.Gen.V m c Cert.KernelIdeal.main_v21 : Cert.KernelIdeal.S1x128.Idx → EReal)
    (Cert.KernelIdeal.Gen.V m c Cert.KernelIdeal.main_v18 : Cert.KernelIdeal.S3x128x128.Idx → EReal)
    (Cert.KernelIdeal.Gen.V m c Cert.KernelIdeal.main_v22 : Cert.KernelIdeal.S1x128.Idx → EReal)
    (Cert.KernelIdeal.Gen.V m c Cert.KernelIdeal.main_v23 : Cert.KernelIdeal.S1x128.Idx → EReal) n q = _
  rw [Cert.KernelIdeal.Host.feat_eq, Cert.KernelIdeal.Host.agg_eq, Cert.KernelIdeal.Host.deg_eq, Cert.KernelIdeal.Host.linw_eq,
    Cert.KernelIdeal.Host.bias_eq, Cert.KernelIdeal.Host.relw_eq, Cert.KernelIdeal.Host.scale_eq, Cert.KernelIdeal.Host.shift_eq]
  exact core _ _ _ _ _ _ _ _ hx hR hidx het n q

end Cert.Bridge

end
-- ==== Proof.lean ====
/-
  A relational graph layer with mean aggregation, a linear residual and layer normalisation, computed two ways.

  Inputs: node features x [50000, 128], an edge table [2, 600000] (row 0 the source, row 1 the destination of each edge), an
  edge type per edge, three relation weight matrices, linear weights and bias, and the normalisation's scale and shift.  Under
  the precondition every float input is finite, every edge end is a node number in [0, 50000) and every edge type is one of
  the three relations.

  The reference forms each edge's message x[src] · W_type edge by edge, scatter-adds the messages by destination, divides by
  the clamped in-degree, adds x · linᵀ + bias, and layer-normalises each node's row.  The kernel instead scatter-adds the raw
  gathered rows x[src] into one bucket per (relation, destination) pair, keyed relation · 50000 + destination, and multiplies
  each relation's bucket table by that relation's weights inside the tiled call, 2000 nodes at a time, before the same
  division, residual and normalisation.

  The two agree because multiplication by a weight matrix commutes with a finite sum of real rows (the entries are real by the
  precondition; over the extended reals distributivity would fail at the infinities), because an edge's key is r · 50000 + n
  exactly when it points at n and carries relation r (the key does not wrap for in-range words), and because every later step
  is the same function of the pre-activation row on both sides.  Format changes are the identity on the extended reals, a
  matrix product into a zero accumulator is a plain sum over the contracted coordinate, and the 25 row tiles cover the 50000
  rows, so the kernel's output array is one whole-array function of the arrays the call reads (Spec.outArr).

  The three frames come from the generated frame proofs and the reference's generated run; the idealization rewrote nothing,
  so its conjunct is trivial.
-/
import proofs.«421003_j67817533604356_2_alg».proof.Defs
import proofs.«421003_j67817533604356_2_alg».proof.Proof.Gen.Kernel
import proofs.«421003_j67817533604356_2_alg».proof.Proof.Gen.Kernel.Skeleton
import proofs.«421003_j67817533604356_2_alg».proof.Proof.Gen.Kernel.Launch
import proofs.«421003_j67817533604356_2_alg».proof.Proof.Gen.Kernel.Points
import proofs.«421003_j67817533604356_2_alg».proof.Proof.Gen.Kernel.Frame
import proofs.«421003_j67817533604356_2_alg».proof.Proof.Gen.KernelIdeal
import proofs.«421003_j67817533604356_2_alg».proof.Proof.Gen.KernelIdeal.Skeleton
import proofs.«421003_j67817533604356_2_alg».proof.Proof.Gen.KernelIdeal.Launch
import proofs.«421003_j67817533604356_2_alg».proof.Proof.Gen.KernelIdeal.Points
import proofs.«421003_j67817533604356_2_alg».proof.Proof.Gen.KernelIdeal.Frame
import proofs.«421003_j67817533604356_2_alg».proof.Proof.Gen.ReferenceIdeal
import proofs.«421003_j67817533604356_2_alg».proof.Proof.Gen.Pre_finite_inputs
import proofs.«421003_j67817533604356_2_alg».proof.Proof.Gen.KernelIdeal.Value
import proofs.«421003_j67817533604356_2_alg».proof.Proof.Gen.ReferenceIdeal.Run
import proofs.«421003_j67817533604356_2_alg».proof.Proof.Gen.ReferenceIdeal.Read
import proofs.«421003_j67817533604356_2_alg».proof.Proof.Bridge
import Idealize.ShloMosaic.Adequacy
import Idealize.ShloMosaic.Init

noncomputable section

namespace Cert.Proof

open Idealize.ShloMosaic Idealize.ShloMosaic.TcCoe Idealize.SL.Sem

/-- Every fair execution of the kernel terminates without fault and leaves its arguments unchanged. -/
theorem frame_k : Cert.frame_Kernel := fun m ρ _ => Cert.Kernel.Gen.frame m ρ

/-- The same at the exact instance. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact instance, from memories agreeing on the arguments, both programs end with the same result array: the
    kernel's at the whole-array function of its operand arrays, the reference's at its composed stage, and the two are one
    array under the precondition. -/
theorem algebraic : Cert.algebraic_KernelIdeal_ReferenceIdeal := by
  intro m ρ m' ρ' hpre hagree
  refine ⟨fun c => Cert.KernelIdeal.Arr.outK m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
